-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S512 : Shape := ⟨1, ![512]⟩
abbrev S65536x256 : Shape := ⟨2, ![65536, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S65536x256 : S_.BroadcastsInDim S65536x256 (![] : Fin 0 → Fin S65536x256.rank)
  reducesTo_S65536x256_S_d0_1 : S65536x256.ReducesTo [0, 1] S_
  bcast_S_S512 : S_.BroadcastsInDim S512 (![] : Fin 0 → Fin S512.rank)
  reducesTo_S512_S_d0 : S512.ReducesTo [0] S_
  reducesTo_S512x256_S512_d1 : S512x256.ReducesTo [1] S512

variable [Facts]

def fn_part1 {F : FTy → Type} [FloatOps F] (main_arg0 : FVec F S512x256 .f32) (main_arg2 : IVec S512 32) (main_v13 : IVec S_ 1) (main_v15 : IVec S512 1) (main_c_5 : IVec S_ 32) : IVec S_ 1 :=
  let main_v16 : IVec S512 32 := broadcastInDim S512 ![] bcast_S_S512 main_c_5
  let main_v17 : IVec S512 1 := cmpi .slt main_arg2 main_v16
  let main_v18 : IVec S512 1 := andi main_v15 main_v17
  let main_c_6 : IVec S_ 1 := constantI S_ 1 1#1
  let main_v19 : IVec S_ 1 := (fun x v => Host.reduce IntOp.andi x v reducesTo_S512_S_d0 h_S_) main_v18 main_c_6
  let main_v20 : IVec S_ 1 := andi main_v13 main_v19
  let main_v21 : FVec F S512x256 .f32 := mulf main_arg0 main_arg0
  let main_cst_7 : FVec F S_ .f32 := constant S_ .f32 0x00000000#32
  let main_v22 : FVec F S512 .f32 := (fun x v => Host.reduceAdd x v reducesTo_S512x256_S512_d1 h_S_) main_v21 main_cst_7
  let main_cst_8 : FVec F S_ .f32 := constant S_ .f32 0x00000000#32
  let main_v23 : FVec F S512 .f32 := broadcastInDim S512 ![] bcast_S_S512 main_cst_8
  let main_v24 : IVec S512 1 := cmpf .ogt main_v22 main_v23
  let main_c_9 : IVec S_ 1 := constantI S_ 1 1#1
  let main_v25 : IVec S_ 1 := (fun x v => Host.reduce IntOp.andi x v reducesTo_S512_S_d0 h_S_) main_v24 main_c_9
  let main_v26 : IVec S_ 1 := andi main_v20 main_v25
  main_v26

def fn {F : FTy → Type} [FloatOps F] (main_arg0 : FVec F S512x256 .f32) (main_arg1 : FVec F S512x256 .f32) (main_arg2 : IVec S512 32) (main_arg3 : FVec F S65536x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S65536x256 .f32 := Host.absf main_arg3
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_c_4 : IVec S_ 32 := constantI S_ 32 0#32
  let main_v14 : IVec S512 32 := broadcastInDim S512 ![] bcast_S_S512 main_c_4
  let main_v15 : IVec S512 1 := cmpi .sge main_arg2 main_v14
  let main_c_5 : IVec S_ 32 := constantI S_ 32 65536#32
  fn_part1 (F := F) main_arg0 main_arg2 main_v13 main_v15 main_c_5
-- ==== Kernel.lean ====
abbrev S512x256 : Shape := ⟨2, ![512, 256]⟩
abbrev S512 : Shape := ⟨1, ![512]⟩
abbrev S65536x256 : Shape := ⟨2, ![65536, 256]⟩
abbrev S_ : Shape := ⟨0, ![]⟩
abbrev S512x1 : Shape := ⟨2, ![512, 1]⟩
abbrev S2048x256 : Shape := ⟨2, ![2048, 256]⟩
abbrev S512x2048 : Shape := ⟨2, ![512, 2048]⟩

abbrev nBuf : Space → Nat
  | .hbm => 33
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .i32⟩
  | .hbm, ⟨3, _⟩ => ⟨S65536x256, .f32⟩
  | .hbm, ⟨4, _⟩ => ⟨S512x256, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x256, .f32⟩
  | .hbm, ⟨10, _⟩ => ⟨S512x256, .f32⟩
  | .hbm, ⟨11, _⟩ => ⟨S512x1, .f32⟩
  | .hbm, ⟨12, _⟩ => ⟨S_, .i32⟩
  | .hbm, ⟨13, _⟩ => ⟨S512, .i32⟩
  | .hbm, ⟨14, _⟩ => ⟨S512, .i1⟩
  | .hbm, ⟨15, _⟩ => ⟨S_, .i32⟩
  | .hbm, ⟨16, _⟩ => ⟨S512, .i32⟩
  | .hbm, ⟨17, _⟩ => ⟨S512, .i32⟩
  | .hbm, ⟨18, _⟩ => ⟨S512, .i32⟩
  | .hbm, ⟨19, _⟩ => ⟨S512x1, .i32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512, .f32⟩
  | .hbm, ⟨24, _⟩ => ⟨S512x1, .f32⟩
  | .hbm, ⟨25, _⟩ => ⟨S_, .f32⟩
  | .hbm, ⟨26, _⟩ => ⟨S512x1, .f32⟩
  | .hbm, ⟨27, _⟩ => ⟨S512x1, .f32⟩
  | .hbm, ⟨28, _⟩ => ⟨S512x1, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x256, .f32⟩
  | .local _ .vmem, ⟨1, _⟩ => ⟨S2048x256, .f32⟩
  | .local _ .vmem, ⟨2, _⟩ => ⟨S2048x256, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  reduces_S512x2048_S512 : S512x2048.Reduces [1] S512
  shapeCasts_S512_S512x1 : S512.ShapeCasts S512x1
  broadcasts_S512x1_S512x2048 : S512x1.Broadcasts S512x2048
  bcast_S_S512 : S_.BroadcastsInDim S512 (![] : Fin 0 → Fin S512.rank)
  bcast_S_S512x1 : S_.BroadcastsInDim S512x1 (![] : Fin 0 → Fin S512x1.rank)
  reducesTo_S512x1_S_d0_1 : S512x1.ReducesTo [0, 1] S_
  dot_S512x256_S2048x256_S512x2048_1_1_0_0_n_n_wf : DotDims.WF S512x256 S2048x256 S512x2048 [1] [1] [0] [0] [] []
  gather_S65536x256_S512x1_S512x256_1_0_n_n_0_1_1256_wf : GatherDims.WF S65536x256 S512x1 S512x256 [1] [0] [] [0] [] 1 ![1, 256]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .f32 = 32 ∨ (Rect.block (s := S512x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)

variable [Facts₀]

def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf
def gather_S65536x256_S512x1_S512x256_1_0_n_n_0_1_1256 : GatherDims S65536x256 S512x1 S512x256 where
  offsetDims := [1]
  collapsedSliceDims := [0]
  operandBatchingDims := []
  startIndicesBatchingDims := []
  startIndexMap := [0]
  indexVectorDim := 1
  sliceSizes := ![1, 256]
  wf := gather_S65536x256_S512x1_S512x256_1_0_n_n_0_1_1256_wf

abbrev win0_0 : Pipeline.Window sig grid0 :=
  Pipeline.Window.ofSpec (Memref.whole main_v2) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S512x256 : Shape := ⟨2, ![512, 256]⟩
abbrev S512 : Shape := ⟨1, ![512]⟩
abbrev S65536x256 : Shape := ⟨2, ![65536, 256]⟩
abbrev S_ : Shape := ⟨0, ![]⟩
abbrev S512x1 : Shape := ⟨2, ![512, 1]⟩
abbrev S256x65536 : Shape := ⟨2, ![256, 65536]⟩
abbrev S512x65536 : Shape := ⟨2, ![512, 65536]⟩
abbrev S512x1x1 : Shape := ⟨3, ![512, 1, 1]⟩
abbrev S1 : Shape := ⟨1, ![1]⟩
abbrev S1x1x1 : Shape := ⟨3, ![1, 1, 1]⟩

abbrev nBuf : Space → Nat
  | .hbm => 59
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512, .i32⟩
  | .hbm, ⟨3, _⟩ => ⟨S65536x256, .f32⟩
  | .hbm, ⟨4, _⟩ => ⟨S512x256, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S512x1, .f32⟩
  | .hbm, ⟨9, _⟩ => ⟨S512x256, .f32⟩
  | .hbm, ⟨10, _⟩ => ⟨S512x256, .f32⟩
  | .hbm, ⟨11, _⟩ => ⟨S256x65536, .f32⟩
  | .hbm, ⟨12, _⟩ => ⟨S512x65536, .f32⟩
  | .hbm, ⟨13, _⟩ => ⟨S_, .f32⟩
  | .hbm, ⟨14, _⟩ => ⟨S512x65536, .f32⟩
  | .hbm, ⟨15, _⟩ => ⟨S512x65536, .f32⟩
  | .hbm, ⟨16, _⟩ => ⟨S_, .f32⟩
  | .hbm, ⟨17, _⟩ => ⟨S512, .f32⟩
  | .hbm, ⟨18, _⟩ => ⟨S_, .f32⟩
  | .hbm, ⟨19, _⟩ => ⟨S512, .f32⟩
  | .hbm, ⟨20, _⟩ => ⟨S512, .f32⟩
  | .hbm, ⟨21, _⟩ => ⟨S512x1, .f32⟩
  | .hbm, ⟨22, _⟩ => ⟨S512x65536, .f32⟩
  | .hbm, ⟨23, _⟩ => ⟨S512x65536, .f32⟩
  | .hbm, ⟨24, _⟩ => ⟨S512x65536, .f32⟩
  | .hbm, ⟨25, _⟩ => ⟨S_, .f32⟩
  | .hbm, ⟨26, _⟩ => ⟨S512, .f32⟩
  | .hbm, ⟨27, _⟩ => ⟨S512x1, .f32⟩
  | .hbm, ⟨28, _⟩ => ⟨S512x1, .f32⟩
  | .hbm, ⟨29, _⟩ => ⟨S512x65536, .f32⟩
  | .hbm, ⟨30, _⟩ => ⟨S512x65536, .f32⟩
  | .hbm, ⟨31, _⟩ => ⟨S512x1, .i32⟩
  | .hbm, ⟨32, _⟩ => ⟨S_, .i32⟩
  | .hbm, ⟨33, _⟩ => ⟨S512x1, .i32⟩
  | .hbm, ⟨34, _⟩ => ⟨S512x1, .i1⟩
  | .hbm, ⟨35, _⟩ => ⟨S_, .i32⟩
  | .hbm, ⟨36, _⟩ => ⟨S512x1, .i32⟩
  | .hbm, ⟨37, _⟩ => ⟨S512x1, .i32⟩
  | .hbm, ⟨38, _⟩ => ⟨S512x1, .i32⟩
  | .hbm, ⟨39, _⟩ => ⟨S512x1x1, .i32⟩
  | .hbm, ⟨40, _⟩ => ⟨S1, .i32⟩
  | .hbm, ⟨41, _⟩ => ⟨S_, .i32⟩
  | .hbm, ⟨42, _⟩ => ⟨S512x1x1, .i32⟩
  | .hbm, ⟨43, _⟩ => ⟨S512x1x1, .i1⟩
  | .hbm, ⟨44, _⟩ => ⟨S1x1x1, .i32⟩
  | .hbm, ⟨45, _⟩ => ⟨S512x1x1, .i32⟩
  | .hbm, ⟨46, _⟩ => ⟨S512x1x1, .i1⟩
  | .hbm, ⟨47, _⟩ => ⟨S512x1x1, .i1⟩
  | .hbm, ⟨48, _⟩ => ⟨S_, .i1⟩
  | .hbm, ⟨49, _⟩ => ⟨S512x1, .i1⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_call1_cst : Ref sig .tc := ⟨.hbm, 16, rfl⟩
abbrev main_call1_v0 : Ref sig .tc := ⟨.hbm, 17, rfl⟩
abbrev main_call1_cst_0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_cst_1 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_v7 : Ref sig .tc := ⟨.hbm, 30, rfl⟩
abbrev main_v8 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v9 : Ref sig .tc := ⟨.hbm, 53, rfl⟩
abbrev main_cst_0 : Ref sig .tc := ⟨.hbm, 54, rfl⟩
abbrev main_v10 : Ref sig .tc := ⟨.hbm, 55, rfl⟩
abbrev main_cst_1 : Ref sig .tc := ⟨.hbm, 56, rfl⟩
abbrev main_v11 : Ref sig .tc := ⟨.hbm, 57, rfl⟩
abbrev main_v12 : Ref sig .tc := ⟨.hbm, 58, rfl⟩

abbrev nD : Nat := 1
abbrev τ : Topo := Topo.v7x

variable {F : FTy → Type} [FloatOps F]

class Facts₀ : Prop where
  reducesTo_S512x256_S512_d1 : S512x256.ReducesTo [1] S512
  h_S_ : 0 < S_.numel
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  transposes_S65536x256_S256x65536_1_0 : S65536x256.Transposes [1, 0] S256x65536
  bcast_S_S512x65536 : S_.BroadcastsInDim S512x65536 (![] : Fin 0 → Fin S512x65536.rank)
  reducesTo_S512x65536_S512_d1 : S512x65536.ReducesTo [1] S512
  bcast_S_S512 : S_.BroadcastsInDim S512 (![] : Fin 0 → Fin S512.rank)
  bcast_S512x1_S512x65536_0_1 : S512x1.BroadcastsInDim S512x65536 (![0, 1] : Fin 2 → Fin S512x65536.rank)
  bcast_S_S512x1 : S_.BroadcastsInDim S512x1 (![] : Fin 0 → Fin S512x1.rank)
  shapeCasts_S512x1_S512x1x1 : S512x1.ShapeCasts S512x1x1
  bcast_S_S512x1x1 : S_.BroadcastsInDim S512x1x1 (![] : Fin 0 → Fin S512x1x1.rank)
  bcast_S1_S1x1x1_2 : S1.BroadcastsInDim S1x1x1 (![2] : Fin 1 → Fin S1x1x1.rank)
  bcast_S1x1x1_S512x1x1_0_1_2 : S1x1x1.BroadcastsInDim S512x1x1 (![0, 1, 2] : Fin 3 → Fin S512x1x1.rank)
  reducesTo_S512x1x1_S512x1_d2 : S512x1x1.ReducesTo [2] S512x1
  reducesTo_S512x1_S_d0_1 : S512x1.ReducesTo [0, 1] S_
  dot_S512x256_S256x65536_S512x65536_1_0_0_1_n_n_wf : DotDims.WF S512x256 S256x65536 S512x65536 [1] [0] [0] [1] [] []
  gather_S512x65536_S512x1x1_S512x1_n_1_0_0_1_2_11_wf : GatherDims.WF S512x65536 S512x1x1 S512x1 [] [1] [0] [1] [0] 2 ![1, 1]

variable [Facts₀]

def dot_S512x256_S256x65536_S512x65536_1_0_0_1_n_n : DotDims S512x256 S256x65536 S512x65536 where
  lhsContracting := [1]
  rhsContracting := [0]
  lhsNonContracting := [0]
  rhsNonContracting := [1]
  lhsBatch := []
  rhsBatch := []
  wf := dot_S512x256_S256x65536_S512x65536_1_0_0_1_n_n_wf
def gather_S512x65536_S512x1x1_S512x1_n_1_0_0_1_2_11 : GatherDims S512x65536 S512x1x1 S512x1 where
  offsetDims := []
  collapsedSliceDims := [1]
  operandBatchingDims := [0]
  startIndicesBatchingDims := [0]
  startIndexMap := [1]
  indexVectorDim := 2
  sliceSizes := ![1, 1]
  wf := gather_S512x65536_S512x1x1_S512x1_n_1_0_0_1_2_11_wf

class Facts : Prop extends Facts₀ where

variable [Facts]
-- ==== Proof.KPieces.lean ====
import proofs.«415887_j14611478741436_1_alg».proof.Proof.Gen.KernelIdeal.Frame
import Idealize.ShloMosaic.Lib.Pipeline.Value
import Idealize.ShloMosaic.Lib.Tactic

/-!
What each control case of the kernel body leaves in the two carried scratch buffers (the running maximum and the
running sum) and, at the last grid point, in the output block: the body's store payloads applied to the loaded blocks.
-/

noncomputable section

namespace Cert.KernelIdeal.Pieces

open Idealize.ShloMosaic Idealize.ShloMosaic.TcCoe Idealize.SL.Sem
open Cert.KernelIdeal Cert.KernelIdeal.Gen

variable {F : FTy → Type} [FloatOps F] [Named F]

theorem hz : (![0, 0] : Fin 2 → Nat) = fun _ => 0 := funext fun a => by fin_cases a <;> rfl

/-- First grid point: the maximum buffer is reset to `-∞` and then updated. -/
theorem sA0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i) (x0 : Vec F S512x256 .f32) (x1 : Vec F S2048x256 .f32) :
    sout0_A_0 c i arg1 harg1 arg2 harg2 arg3 harg3 arg4 harg4 arg5 harg5 hc0 hc1 x0 x1 = k0_pay5 x0 x1 (k0_pay1 (F := F)) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S512x1) hz]
  simp only [View.readCov_unit_zero (S := S512x1) _ hz, View.readAt_eq_ld, harg1.read_unread, harg2.read_unread, View.ld_unit_zero (S := S512x256) hz, View.ld_unit_zero (S := S2048x256) hz]

/-- First grid point: the sum buffer is reset to `0` and then updated. -/
theorem sA1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : cond0_0 i) (hc1 : ¬cond0_1 i) (x0 : Vec F S512x256 .f32) (x1 : Vec F S2048x256 .f32) :
    sout0_A_1 c i arg1 harg1 arg2 harg2 arg3 harg3 arg4 harg4 arg5 harg5 hc0 hc1 x0 x1 = k0_pay6 x0 x1 (k0_pay1 (F := F)) (k0_pay2 (F := F)) := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S512x1) hz]
  simp only [View.readCov_unit_zero (S := S512x1) _ hz, View.readAt_eq_ld, harg1.read_unread, harg2.read_unread, View.ld_unit_zero (S := S512x256) hz, View.ld_unit_zero (S := S2048x256) hz]

/-- A middle grid point updates the maximum over what the point before left. -/
theorem sB0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i) (x0 : Vec F S512x256 .f32) (x1 : Vec F S2048x256 .f32) (xs0 xs1 : Vec F S512x1 .f32) :
    sout0_B_0 c i arg1 harg1 arg2 harg2 arg3 harg3 arg4 harg4 arg5 harg5 hc0 hc1 x0 x1 xs0 xs1 = k0_pay5 x0 x1 xs0 := by
  unfold sout0_B_0
  rw [View.read_writes_eq_canon _ _ _ (scover0_B_0 c i arg1 harg1 arg2 harg2 arg3 harg3 arg4 harg4 arg5 harg5 hc0 hc1 x0 x1 xs0 xs1)]
  unfold kernelRun0_B
  dsimp only
  sl_unfold_words
  rw [View.canon_unit_zero (S := S512x1) hz]
  simp only [View.readAt_eq_ld, harg1.read_unread, harg2.read_unread, harg3.read_unread, harg4.read_unread, harg5.read_unread, View.ld_unit_zero (S := S512x256) hz, View.ld_unit_zero (S := S2048x256) hz, View.ld_unit_zero (S := S512x1) hz]

theorem sB1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : ¬cond0_1 i) (x0 : Vec F S512x256 .f32) (x1 : Vec F S2048x256 .f32) (xs0 xs1 : Vec F S512x1 .f32) :
    sout0_B_1 c i arg1 harg1 arg2 harg2 arg3 harg3 arg4 harg4 arg5 harg5 hc0 hc1 x0 x1 xs0 xs1 = k0_pay6 x0 x1 xs0 xs1 := by
  unfold sout0_B_1
  rw [View.read_writes_eq_canon _ _ _ (scover0_B_1 c i arg1 harg1 arg2 harg2 arg3 harg3 arg4 harg4 arg5 harg5 hc0 hc1 x0 x1 xs0 xs1)]
  unfold kernelRun0_B
  dsimp only
  sl_unfold_words
  rw [View.canon_unit_zero (S := S512x1) hz]
  simp only [View.readAt_eq_ld, harg1.read_unread, harg2.read_unread, harg3.read_unread, harg4.read_unread, harg5.read_unread, View.ld_unit_zero (S := S512x256) hz, View.ld_unit_zero (S := S2048x256) hz, View.ld_unit_zero (S := S512x1) hz]

/-- The last grid point updates both buffers the same way … -/
theorem sC0 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x256 .f32) (x1 : Vec F S2048x256 .f32) (xs0 xs1 : Vec F S512x1 .f32) :
    sout0_C_0 c i arg1 harg1 arg2 harg2 arg3 harg3 arg4 harg4 arg5 harg5 hc0 hc1 x0 x1 xs0 xs1 = k0_pay5 x0 x1 xs0 := by
  unfold sout0_C_0
  rw [View.read_writes_eq_canon _ _ _ (scover0_C_0 c i arg1 harg1 arg2 harg2 arg3 harg3 arg4 harg4 arg5 harg5 hc0 hc1 x0 x1 xs0 xs1)]
  unfold kernelRun0_C
  dsimp only
  sl_unfold_words
  rw [View.canon_unit_zero (S := S512x1) hz]
  simp only [View.readAt_eq_ld, harg1.read_unread, harg2.read_unread, harg3.read_unread, harg4.read_unread, harg5.read_unread, View.ld_unit_zero (S := S512x256) hz, View.ld_unit_zero (S := S2048x256) hz, View.ld_unit_zero (S := S512x1) hz]

theorem sC1 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x256 .f32) (x1 : Vec F S2048x256 .f32) (xs0 xs1 : Vec F S512x1 .f32) :
    sout0_C_1 c i arg1 harg1 arg2 harg2 arg3 harg3 arg4 harg4 arg5 harg5 hc0 hc1 x0 x1 xs0 xs1 = k0_pay6 x0 x1 xs0 xs1 := by
  unfold sout0_C_1
  rw [View.read_writes_eq_canon _ _ _ (scover0_C_1 c i arg1 harg1 arg2 harg2 arg3 harg3 arg4 harg4 arg5 harg5 hc0 hc1 x0 x1 xs0 xs1)]
  unfold kernelRun0_C
  dsimp only
  sl_unfold_words
  rw [View.canon_unit_zero (S := S512x1) hz]
  simp only [View.readAt_eq_ld, harg1.read_unread, harg2.read_unread, harg3.read_unread, harg4.read_unread, harg5.read_unread, View.ld_unit_zero (S := S512x256) hz, View.ld_unit_zero (S := S2048x256) hz, View.ld_unit_zero (S := S512x1) hz]

/-- … and writes `m + log l` of the updated buffers to the output block. -/
theorem oC2 (c : Dev nD) (i : grid0.Coords) (arg1 : Memref sig .tc .vmem S512x256 .f32) (harg1 : arg1.IsWhole) (arg2 : Memref sig .tc .vmem S2048x256 .f32) (harg2 : arg2.IsWhole) (arg3 : Memref sig .tc .vmem S512x1 .f32) (harg3 : arg3.IsWhole) (arg4 : Memref sig .tc .vmem S512x1 .f32) (harg4 : arg4.IsWhole) (arg5 : Memref sig .tc .vmem S512x1 .f32) (harg5 : arg5.IsWhole) (hc0 : ¬cond0_0 i) (hc1 : cond0_1 i) (x0 : Vec F S512x256 .f32) (x1 : Vec F S2048x256 .f32) (xs0 xs1 : Vec F S512x1 .f32) :
    out0_C_2 c i arg1 harg1 arg2 harg2 arg3 harg3 arg4 harg4 arg5 harg5 hc0 hc1 x0 x1 xs0 xs1 = k0_pay7 (k0_pay5 x0 x1 xs0) (k0_pay6 x0 x1 xs0 xs1) := by
  unfold out0_C_2
  rw [View.read_writes_eq_canon _ _ _ (cover0_C_2 c i arg1 harg1 arg2 harg2 arg3 harg3 arg4 harg4 arg5 harg5 hc0 hc1 x0 x1 xs0 xs1)]
  unfold kernelRun0_C
  dsimp only
  sl_unfold_words
  rw [View.canon_unit_zero (S := S512x1) hz]
  simp only [View.readCov_unit_zero (S := S512x1) _ hz, View.readAt_eq_ld, harg1.read_unread, harg2.read_unread, harg4.read_unread, harg5.read_unread, View.ld_unit_zero (S := S512x256) hz, View.ld_unit_zero (S := S2048x256) hz, View.ld_unit_zero (S := S512x1) hz]

end Cert.KernelIdeal.Pieces

end
-- ==== Proof.Softmax.lean ====
import Mathlib.Analysis.SpecialFunctions.Log.Basic
import Mathlib.Data.EReal.Basic
import Mathlib.Algebra.BigOperators.Intervals
import Mathlib.Algebra.Order.BigOperators.Group.Finset
import Idealize.ShloMosaic.PureOps.Ideal

/-!
The streaming log-sum-exp over the reals, and its reading on the extended reals.

For a sequence `Z` the pair `(m, l)` with `m` the largest of the first `K` terms and
`l = ∑_{n<K} exp (Z n - m)` is carried block by block: appending `B` more terms with block maximum `mb`
gives `m' = max m mb` and `l' = exp (m - m') * l + ∑_{j<B} exp (Z (K + j) - m')`, because
`exp (m - m') * exp (Z n - m) = exp (Z n - m')`. At the end `m + log l` is `log ∑ exp (Z n)`
shifted by nothing: it only matters here that both programs hold the same `m` and the same `l`.
-/

noncomputable section

namespace Cert.Lse

open Finset Idealize.ShloMosaic

/-- `m` is the largest of the first `K` terms of `Z`. -/
def IsMaxOn (Z : ℕ → ℝ) (K : ℕ) (m : ℝ) : Prop := (∀ n < K, Z n ≤ m) ∧ ∃ n < K, Z n = m

theorem IsMaxOn.unique {Z : ℕ → ℝ} {K : ℕ} {m m' : ℝ} (h : IsMaxOn Z K m) (h' : IsMaxOn Z K m') : m = m' := by
  obtain ⟨n, hn, rfl⟩ := h.2
  obtain ⟨n', hn', rfl⟩ := h'.2
  exact le_antisymm (h'.1 n hn) (h.1 n' hn')

/-- Appending a block: the maximum of the longer prefix is the larger of the two maxima. -/
theorem IsMaxOn.append {Z : ℕ → ℝ} {K B : ℕ} {m mb : ℝ} (h : IsMaxOn Z K m)
    (hb : IsMaxOn (fun j => Z (K + j)) B mb) : IsMaxOn Z (K + B) (max m mb) := by
  refine ⟨fun n hn => ?_, ?_⟩
  · by_cases hK : n < K
    · exact (h.1 n hK).trans (le_max_left _ _)
    · have e : n = K + (n - K) := by omega
      rw [e]; exact (hb.1 (n - K) (by omega)).trans (le_max_right _ _)
  · rcases le_total mb m with hle | hle
    · obtain ⟨n, hn, e⟩ := h.2
      exact ⟨n, by omega, by rw [e, max_eq_left hle]⟩
    · obtain ⟨j, hj, e⟩ := hb.2
      exact ⟨K + j, by omega, by rw [max_eq_right hle]; exact e⟩

/-- The first block is its own prefix. -/
theorem IsMaxOn.first {Z : ℕ → ℝ} {B : ℕ} {mb : ℝ} (hb : IsMaxOn (fun j => Z (0 + j)) B mb) : IsMaxOn Z B mb := by
  simpa only [Nat.zero_add] using hb

/-- The shifted exponential sum over the first `K` terms. -/
def expSum (Z : ℕ → ℝ) (K : ℕ) (m : ℝ) : ℝ := ∑ n ∈ range K, Real.exp (Z n - m)

/-- Re-basing the old sum to the new maximum and adding the new block's terms is the sum over the longer prefix. -/
theorem expSum_append (Z : ℕ → ℝ) (K B : ℕ) (m m' : ℝ) :
    Real.exp (m - m') * expSum Z K m + ∑ j ∈ range B, Real.exp (Z (K + j) - m') = expSum Z (K + B) m' := by
  unfold expSum
  rw [Finset.sum_range_add, Finset.mul_sum]
  congr 1
  refine Finset.sum_congr rfl fun n _ => ?_
  rw [← Real.exp_add]
  congr 1
  ring

theorem expSum_first (Z : ℕ → ℝ) (B : ℕ) (m' : ℝ) :
    ∑ j ∈ range B, Real.exp (Z (0 + j) - m') = expSum Z B m' := by
  unfold expSum
  simp only [Nat.zero_add]

theorem expSum_pos (Z : ℕ → ℝ) {K : ℕ} (hK : 0 < K) (m : ℝ) : 0 < expSum Z K m :=
  Finset.sum_pos (fun _ _ => Real.exp_pos _) ⟨0, Finset.mem_range.2 hK⟩

/-- The largest entry of a nonempty finite family. -/
def rowMax {n : ℕ} (hn : 0 < n) (z : Fin n → ℝ) : ℝ := (Finset.univ : Finset (Fin n)).sup' ⟨⟨0, hn⟩, Finset.mem_univ _⟩ z

theorem le_rowMax {n : ℕ} (hn : 0 < n) (z : Fin n → ℝ) (j : Fin n) : z j ≤ rowMax hn z :=
  Finset.le_sup' z (Finset.mem_univ j)

theorem rowMax_mem {n : ℕ} (hn : 0 < n) (z : Fin n → ℝ) : ∃ j, z j = rowMax hn z := by
  obtain ⟨j, _, e⟩ := Finset.exists_mem_eq_sup' (s := (Finset.univ : Finset (Fin n))) ⟨⟨0, hn⟩, Finset.mem_univ _⟩ z
  exact ⟨j, e.symm⟩

/-- A block's `rowMax` is its maximum in the sense of `IsMaxOn`, the block read as a stretch of a sequence. -/
theorem isMaxOn_rowMax {n : ℕ} (hn : 0 < n) (Z : ℕ → ℝ) (K : ℕ) :
    IsMaxOn (fun j => Z (K + j)) n (rowMax hn fun j : Fin n => Z (K + j.val)) := by
  refine ⟨fun j hj => le_rowMax hn (fun j : Fin n => Z (K + j.val)) ⟨j, hj⟩, ?_⟩
  obtain ⟨j, e⟩ := rowMax_mem hn fun j : Fin n => Z (K + j.val)
  exact ⟨j.val, j.isLt, e⟩

/-! ### On the extended reals -/

/-- A finite sum of reals, summed in the extended reals. -/
theorem coe_sum {ι : Type*} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The fold of `max` from `-∞` over a nonempty family of reals is its largest entry. -/
theorem fold_max_coe {n : ℕ} (hn : 0 < n) (z : Fin n → ℝ) :
    (Finset.univ : Finset (Fin n)).fold max (⊥ : EReal) (fun j => ((z j : ℝ) : EReal)) = ((rowMax hn z : ℝ) : EReal) := by
  apply le_antisymm
  · rw [Finset.fold_max_le]
    exact ⟨bot_le, fun j _ => EReal.coe_le_coe_iff.2 (le_rowMax hn z j)⟩
  · rw [Finset.le_fold_max]
    obtain ⟨j, e⟩ := rowMax_mem hn z
    exact Or.inr ⟨j, Finset.mem_univ _, by rw [e]⟩

theorem exp_coe_sub (a b : ℝ) : Ideal.exp ((a : EReal) - (b : EReal)) = ((Real.exp (a - b) : ℝ) : EReal) := by
  rw [← EReal.coe_sub]; rfl

theorem exp_bot_sub (b : ℝ) : Ideal.exp ((⊥ : EReal) - (b : EReal)) = 0 := by
  rw [show (⊥ : EReal) - (b : EReal) = ⊥ from rfl]; rfl

theorem log_coe_pos {l : ℝ} (hl : 0 < l) : Ideal.log (l : EReal) = ((Real.log l : ℝ) : EReal) := by
  rw [Ideal.log_coe, if_neg (not_le.2 hl)]

/-- The running maximum's update, on real data. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- The running sum's update, on real data: `exp (m - m') * l + ∑ exp (z j - m')`. -/
theorem step_sum_coe {n : ℕ} (m m' l : ℝ) (z : Fin n → ℝ) :
    Ideal.exp ((m : EReal) - (m' : EReal)) * (l : EReal) + ∑ j : Fin n, Ideal.exp ((z j : EReal) - (m' : EReal))
      = ((Real.exp (m - m') * l + ∑ j : Fin n, Real.exp (z j - m') : ℝ) : EReal) := by
  simp only [exp_coe_sub]
  rw [coe_sum, ← EReal.coe_mul, ← EReal.coe_add]

/-- The same at the first block, where the old maximum is `-∞` and the old sum `0`. -/
theorem first_sum_coe {n : ℕ} (m' : ℝ) (z : Fin n → ℝ) :
    Ideal.exp ((⊥ : EReal) - (m' : EReal)) * (0 : EReal) + ∑ j : Fin n, Ideal.exp ((z j : EReal) - (m' : EReal))
      = ((∑ j : Fin n, Real.exp (z j - m') : ℝ) : EReal) := by
  simp only [exp_coe_sub, exp_bot_sub]
  rw [coe_sum, zero_mul, zero_add]

end Cert.Lse

end
-- ==== Proof.KPay.lean ====
import proofs.«415887_j14611478741436_1_alg».proof.Proof.Gen.KernelIdeal.Skeleton
import proofs.«415887_j14611478741436_1_alg».proof.Proof.Softmax
import Idealize.ShloMosaic.Lib.Pipeline.Value
import Idealize.ShloMosaic.Lib.ValueIdx
import Idealize.ShloMosaic.Lib.ValueLayout
import Idealize.ShloMosaic.PureOps.Ideal.Laws

/-!
The kernel body's arithmetic on real data, read at an index over the extended reals.
-/

noncomputable section

namespace Cert.KernelIdeal.Pay

open Idealize.ShloMosaic Idealize.ShloMosaic.TcCoe Idealize.ShloMosaic.ValueIdx
open Cert.KernelIdeal Cert.KernelIdeal.Gen Cert.Lse

/-- The temperature factor the idealized kernel multiplies the scores by: the reciprocal of the reference's divisor. -/
def invTemp : ℝ := 268435456 / 13421773

/-- A block of scaled scores over the reals: row `b` of the queries against row `j` of the block of the bank. -/
def zR (xR : Fin 512 → Fin 256 → ℝ) (fR : Fin 2048 → Fin 256 → ℝ) (b : Fin 512) (j : Fin 2048) : ℝ :=
  (∑ k : Fin 256, xR b k * fR j k) * invTemp

/-- Real families as arrays of extended reals. -/
abbrev arrX (xR : Fin 512 → Fin 256 → ℝ) : Vec Ideal S512x256 .f32 := fun i => ((xR (i 0) (i 1) : ℝ) : EReal)
abbrev arrF (fR : Fin 2048 → Fin 256 → ℝ) : Vec Ideal S2048x256 .f32 := fun i => ((fR (i 0) (i 1) : ℝ) : EReal)
abbrev arrC (v : Fin 512 → ℝ) : Vec Ideal S512x1 .f32 := fun i => ((v (i 0) : ℝ) : EReal)

theorem h2048 : 0 < 2048 := by decide

/-! ### The matrix product at an index -/

private theorem lhs_mm_0 (i : S512x2048.Idx) (q : dot_S512x256_S2048x256_S512x2048_1_1_0_0_n_n.contr.Idx) :
    (dot_S512x256_S2048x256_S512x2048_1_1_0_0_n_n.lhsIdx i q 0).val = (i 0).val := by
  unfold DotDims.lhsIdx
  rw [dif_neg (show ¬(0 : Fin S512x256.rank) ∈ dot_S512x256_S2048x256_S512x2048_1_1_0_0_n_n.lhsBatch by decide), dif_pos (show (0 : Fin S512x256.rank) ∈ dot_S512x256_S2048x256_S512x2048_1_1_0_0_n_n.lhsNonContracting by decide)]
  rfl
private theorem lhs_mm_1 (i : S512x2048.Idx) (q : dot_S512x256_S2048x256_S512x2048_1_1_0_0_n_n.contr.Idx) :
    (dot_S512x256_S2048x256_S512x2048_1_1_0_0_n_n.lhsIdx i q 1).val = (q ⟨0, by decide⟩).val :=
  dot_S512x256_S2048x256_S512x2048_1_1_0_0_n_n.lhsIdx_val_of_single rfl i q
private theorem rhs_mm_0 (i : S512x2048.Idx) (q : dot_S512x256_S2048x256_S512x2048_1_1_0_0_n_n.contr.Idx) :
    (dot_S512x256_S2048x256_S512x2048_1_1_0_0_n_n.rhsIdx i q 0).val = (i 1).val := by
  unfold DotDims.rhsIdx
  rw [dif_neg (show ¬(0 : Fin S2048x256.rank) ∈ dot_S512x256_S2048x256_S512x2048_1_1_0_0_n_n.rhsBatch by decide), dif_pos (show (0 : Fin S2048x256.rank) ∈ dot_S512x256_S2048x256_S512x2048_1_1_0_0_n_n.rhsNonContracting by decide)]
  rfl
private theorem rhs_mm_1 (i : S512x2048.Idx) (q : dot_S512x256_S2048x256_S512x2048_1_1_0_0_n_n.contr.Idx) :
    (dot_S512x256_S2048x256_S512x2048_1_1_0_0_n_n.rhsIdx i q 1).val = (q ⟨0, by decide⟩).val :=
  dot_S512x256_S2048x256_S512x2048_1_1_0_0_n_n.rhsIdx_val_of_single rfl i q

/-- The product of the two blocks into a zero accumulator, contracting the second axis of both: at `(b, j)` the sum over `k`. -/
private theorem mm_apply (y0 : FVec Ideal S512x256 .bf16) (y1 : FVec Ideal S2048x256 .bf16) (b : Fin 512) (j : Fin 2048) :
    matmul dot_S512x256_S2048x256_S512x2048_1_1_0_0_n_n none y0 y1 (constant (F := Ideal) S512x2048 .f32 0x00000000#32) (ix2 b j)
      = ∑ k : Fin 256, y0 (ix2 b k) * y1 (ix2 j k) := by
  simp only [matmul]
  rw [Ideal.matmul_constant_zero_apply, ← Equiv.sum_comp (contrEquiv1 dot_S512x256_S2048x256_S512x2048_1_1_0_0_n_n 256 rfl rfl).symm]
  refine Finset.sum_congr rfl fun k _ => ?_
  have hk := contrEquiv1_symm_val dot_S512x256_S2048x256_S512x2048_1_1_0_0_n_n 256 rfl rfl k
  have el : dot_S512x256_S2048x256_S512x2048_1_1_0_0_n_n.lhsIdx (ix2 b j) ((contrEquiv1 dot_S512x256_S2048x256_S512x2048_1_1_0_0_n_n 256 rfl rfl).symm k) = ix2 b k := funext fun a => Fin.ext (by
    match a with
    | ⟨0, _⟩ => exact lhs_mm_0 _ _
    | ⟨1, _⟩ => exact (lhs_mm_1 _ _).trans hk)
  have er : dot_S512x256_S2048x256_S512x2048_1_1_0_0_n_n.rhsIdx (ix2 b j) ((contrEquiv1 dot_S512x256_S2048x256_S512x2048_1_1_0_0_n_n 256 rfl rfl).symm k) = ix2 j k := funext fun a => Fin.ext (by
    match a with
    | ⟨0, _⟩ => exact rhs_mm_0 _ _
    | ⟨1, _⟩ => exact (rhs_mm_1 _ _).trans hk)
  rw [el, er]

private theorem ofBits_neg_inf : Ideal.ofBits .f32 0xFF800000#32 = ⊥ := by simp [Ideal.ofBits, Ideal.ieee]

private theorem inv_temp_coe :
    Named.named (F := Ideal) Cert.KernelIdeal.κ "inv_temp" (φ := .f32) 0x41A00000#32 = ((invTemp : ℝ) : EReal) :=
  IdealRules.named_const.ideal_named_scalar _ _ _ _ rfl

/-- The scaled scores at an index, over any two blocks. -/
private theorem pay3_apply (v3 : Vec Ideal S512x256 .f32) (v6 : Vec Ideal S2048x256 .f32) (b : Fin 512) (j : Fin 2048) :
    k0_pay3 (F := Ideal) v3 v6 (ix2 b j) = (∑ k : Fin 256, v3 (ix2 b k) * v6 (ix2 j k)) * ((invTemp : ℝ) : EReal) := by
  unfold k0_pay3
  refine (mulf_apply _ _ _).trans ?_
  refine congrArg₂ (· * ·) ?_ inv_temp_coe
  refine (mm_apply _ _ b j).trans ?_
  refine Finset.sum_congr rfl fun k _ => ?_
  rw [shapeCast_self]
  rfl

/-- The scaled scores of a block at an index. -/
theorem pay3_coe (xR : Fin 512 → Fin 256 → ℝ) (fR : Fin 2048 → Fin 256 → ℝ) (b : Fin 512) (j : Fin 2048) :
    k0_pay3 (F := Ideal) (arrX xR) (arrF fR) (ix2 b j) = ((zR xR fR b j : ℝ) : EReal) := by
  rw [pay3_apply]
  unfold zR
  rw [EReal.coe_mul, ← coe_sum]
  refine congrArg (· * _) (Finset.sum_congr rfl fun k _ => ?_)
  exact (EReal.coe_mul _ _).symm

/-! ### The layout operations of the body at an index -/

/-- A vector cast to a column reads, at `(i, u)`, the vector at `i`. -/
private theorem shapeCast_col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at `(i, j)`, the column at `i`. -/
private theorem broadcastTo_col_apply {α : Type} (v : S512x1.Idx → α) (h : S512x1.Broadcasts S512x2048)
    (i : Fin 512) (j : Fin 2048) : broadcastTo S512x2048 v h (ix2 i j) = v (ix2 i (0 : Fin 1)) := by
  refine broadcastTo_apply v h (ix2 i j) (ix2 i (0 : Fin 1)) fun ax => ?_
  match ax with
  | ⟨0, _⟩ =>
    show i.val = if (512 : ℕ) = 1 then 0 else i.val
    rw [if_neg (by decide)]
  | ⟨1, _⟩ =>
    show (0 : ℕ) = if (1 : ℕ) = 1 then 0 else j.val
    rw [if_pos rfl]

/-- The maximum along a row, from `-∞`. -/
private theorem rowmax_apply (src : FVec Ideal S512x2048 .f32) (hφ : FKind.Formats .f32)
    (hacc : (0xFF800000#32 : BitVec 32) = FKind.maximumf.neutral .f32 hφ) (b : Fin 512) :
    multiReduction (F := Ideal) .maximumf [1] S512 src 0xFF800000#32 reduces_S512x2048_S512 hφ hacc (ix1 b)
      = (Finset.univ : Finset (Fin 2048)).fold max (⊥ : EReal) (fun j => src (ix2 b j)) := by
  refine (Ideal.multiReduction_maximumf_single src 0xFF800000#32 reduces_S512x2048_S512 hφ hacc (ix1 b)).trans ?_
  rw [show FloatOps.ofBits (F := Ideal) .f32 0xFF800000#32 = (⊥ : EReal) from ofBits_neg_inf]
  refine congrArg (fun f : Fin 2048 → EReal => Finset.fold max (⊥ : EReal) f Finset.univ) (funext fun j => ?_)
  exact congrArg src (funext fun a => Fin.ext (by match a with | ⟨0, _⟩ => rfl | ⟨1, _⟩ => rfl))

/-- The sum along a row. -/
private theorem rowsum_apply (src : FVec Ideal S512x2048 .f32) (hφ : FKind.Formats .f32)
    (hacc : (0x00000000#32 : BitVec 32) = FKind.add.neutral .f32 hφ) (b : Fin 512) :
    multiReduction (F := Ideal) .add [1] S512 src 0x00000000#32 reduces_S512x2048_S512 hφ hacc (ix1 b)
      = ∑ j : Fin 2048, src (ix2 b j) := by
  refine (Ideal.multiReduction_add_single src 0x00000000#32 reduces_S512x2048_S512 hφ hacc (ix1 b)).trans ?_
  refine Finset.sum_congr rfl fun j _ => ?_
  exact congrArg src (funext fun a => Fin.ext (by match a with | ⟨0, _⟩ => rfl | ⟨1, _⟩ => rfl))

/-! ### The two reset values -/

private theorem pay1_eq : k0_pay1 (F := Ideal) = fun _ => (⊥ : EReal) := by
  unfold k0_pay1
  dsimp only
  rw [shapeCast_self]
  funext i
  exact ofBits_neg_inf

private theorem pay2_eq : k0_pay2 (F := Ideal) = fun _ => (0 : EReal) := by
  unfold k0_pay2
  dsimp only
  rw [shapeCast_self]
  funext i
  exact Ideal.ofBits_zero_f32

/-! ### The running maximum -/

private theorem pay4_apply (v3 : Vec Ideal S512x256 .f32) (v6 : Vec Ideal S2048x256 .f32) (v13 : Vec Ideal S512x1 .f32)
    (b : Fin 512) (u : Fin 1) :
    k0_pay4 (F := Ideal) v3 v6 v13 (ix2 b u)
      = max (v13 (ix2 b u)) ((Finset.univ : Finset (Fin 2048)).fold max (⊥ : EReal) fun j => k0_pay3 (F := Ideal) v3 v6 (ix2 b j)) := by
  unfold k0_pay4
  refine (maximumf_apply _ _ _).trans ?_
  refine congrArg (max _) ?_
  refine (shapeCast_col_apply _ _ b u).trans ?_
  exact rowmax_apply _ _ _ b

private theorem pay4_coe (xR : Fin 512 → Fin 256 → ℝ) (fR : Fin 2048 → Fin 256 → ℝ) (mp : Fin 512 → ℝ) (b : Fin 512) (u : Fin 1) :
    k0_pay4 (F := Ideal) (arrX xR) (arrF fR) (arrC mp) (ix2 b u) = ((max (mp b) (rowMax h2048 (zR xR fR b)) : ℝ) : EReal) := by
  rw [pay4_apply]
  simp only [pay3_coe]
  rw [fold_max_coe h2048 (zR xR fR b)]
  exact max_coe _ _

private theorem pay4_first (xR : Fin 512 → Fin 256 → ℝ) (fR : Fin 2048 → Fin 256 → ℝ) (b : Fin 512) (u : Fin 1) :
    k0_pay4 (F := Ideal) (arrX xR) (arrF fR) (k0_pay1 (F := Ideal)) (ix2 b u) = ((rowMax h2048 (zR xR fR b) : ℝ) : EReal) := by
  rw [pay4_apply]
  simp only [pay3_coe]
  rw [fold_max_coe h2048 (zR xR fR b), pay1_eq]
  exact max_eq_right bot_le

/-- The running maximum after a block, over a real running maximum. -/
theorem pay5_coe (xR : Fin 512 → Fin 256 → ℝ) (fR : Fin 2048 → Fin 256 → ℝ) (mp : Fin 512 → ℝ) :
    k0_pay5 (F := Ideal) (arrX xR) (arrF fR) (arrC mp) = arrC fun b => max (mp b) (rowMax h2048 (zR xR fR b)) := by
  unfold k0_pay5
  rw [shapeCast_self]
  funext i
  obtain ⟨b, u, rfl⟩ : ∃ (b : Fin 512) (u : Fin 1), i = ix2 b u := ⟨i 0, i 1, eq_ix2 i⟩
  exact pay4_coe xR fR mp b u

/-- The running maximum after the first block, over the reset value `-∞`. -/
theorem pay5_first (xR : Fin 512 → Fin 256 → ℝ) (fR : Fin 2048 → Fin 256 → ℝ) :
    k0_pay5 (F := Ideal) (arrX xR) (arrF fR) (k0_pay1 (F := Ideal)) = arrC fun b => rowMax h2048 (zR xR fR b) := by
  unfold k0_pay5
  rw [shapeCast_self]
  funext i
  obtain ⟨b, u, rfl⟩ : ∃ (b : Fin 512) (u : Fin 1), i = ix2 b u := ⟨i 0, i 1, eq_ix2 i⟩
  exact pay4_first xR fR b u

/-! ### The running sum -/

private theorem pay6_apply (v3 : Vec Ideal S512x256 .f32) (v6 : Vec Ideal S2048x256 .f32) (v13 v20 : Vec Ideal S512x1 .f32)
    (b : Fin 512) (u : Fin 1) :
    k0_pay6 (F := Ideal) v3 v6 v13 v20 (ix2 b u)
      = Ideal.exp (v13 (ix2 b u) - k0_pay4 (F := Ideal) v3 v6 v13 (ix2 b u)) * v20 (ix2 b u)
        + ∑ j : Fin 2048, Ideal.exp (k0_pay3 (F := Ideal) v3 v6 (ix2 b j) - k0_pay4 (F := Ideal) v3 v6 v13 (ix2 b (0 : Fin 1))) := by
  unfold k0_pay6
  rw [shapeCast_self]
  refine (addf_apply _ _ _).trans ?_
  refine congrArg₂ (· + ·) rfl ?_
  refine (shapeCast_col_apply _ _ b u).trans ?_
  refine (rowsum_apply _ _ _ b).trans ?_
  refine Finset.sum_congr rfl fun j _ => ?_
  refine congrArg Ideal.exp ?_
  refine (subf_apply _ _ _).trans ?_
  refine congrArg (_ - ·) ?_
  exact broadcastTo_col_apply _ _ b j

/-- The running sum after a block. -/
theorem pay6_coe (xR : Fin 512 → Fin 256 → ℝ) (fR : Fin 2048 → Fin 256 → ℝ) (mp lp : Fin 512 → ℝ) :
    k0_pay6 (F := Ideal) (arrX xR) (arrF fR) (arrC mp) (arrC lp)
      = arrC fun b => Real.exp (mp b - max (mp b) (rowMax h2048 (zR xR fR b))) * lp b
          + ∑ j : Fin 2048, Real.exp (zR xR fR b j - max (mp b) (rowMax h2048 (zR xR fR b))) := by
  funext i
  obtain ⟨b, u, rfl⟩ : ∃ (b : Fin 512) (u : Fin 1), i = ix2 b u := ⟨i 0, i 1, eq_ix2 i⟩
  rw [pay6_apply]
  simp only [pay4_coe, pay3_coe]
  exact step_sum_coe (mp b) (max (mp b) (rowMax h2048 (zR xR fR b))) (lp b) (zR xR fR b)

/-- The running sum after the first block, over the reset values `-∞` and `0`. -/
theorem pay6_first (xR : Fin 512 → Fin 256 → ℝ) (fR : Fin 2048 → Fin 256 → ℝ) :
    k0_pay6 (F := Ideal) (arrX xR) (arrF fR) (k0_pay1 (F := Ideal)) (k0_pay2 (F := Ideal))
      = arrC fun b => ∑ j : Fin 2048, Real.exp (zR xR fR b j - rowMax h2048 (zR xR fR b)) := by
  funext i
  obtain ⟨b, u, rfl⟩ : ∃ (b : Fin 512) (u : Fin 1), i = ix2 b u := ⟨i 0, i 1, eq_ix2 i⟩
  rw [pay6_apply]
  simp only [pay4_first, pay3_coe]
  rw [pay1_eq, pay2_eq]
  exact first_sum_coe (rowMax h2048 (zR xR fR b)) (zR xR fR b)

/-! ### The output block -/

/-- The output block: `m + log l` for a positive sum. -/
theorem pay7_coe (mR lR : Fin 512 → ℝ) (hl : ∀ b, 0 < lR b) :
    k0_pay7 (F := Ideal) (arrC mR) (arrC lR) = arrC fun b => mR b + Real.log (lR b) := by
  funext i
  obtain ⟨b, u, rfl⟩ : ∃ (b : Fin 512) (u : Fin 1), i = ix2 b u := ⟨i 0, i 1, eq_ix2 i⟩
  show ((mR b : ℝ) : EReal) + Ideal.log ((lR b : ℝ) : EReal) = ((mR b + Real.log (lR b) : ℝ) : EReal)
  rw [log_coe_pos (hl b), EReal.coe_add]

end Cert.KernelIdeal.Pay

end
-- ==== Proof.Spec.lean ====
import proofs.«415887_j14611478741436_1_alg».proof.Proof.Softmax

/-!
The loss both programs compute, over the reals: for each of the 512 queries `b` the scaled scores
`score b n = (∑ k, x b k * f n k) / T` against the 65536 rows of the bank (`1 / T` the exact reciprocal of the
temperature the reference divides by), their log-sum-exp written as `M + log ∑ exp (score - M)` with `M` the largest
score, minus the score at the query's label; averaged over the queries.
-/

noncomputable section

namespace Cert.Spec

open Cert.Lse

/-- The reciprocal of the temperature: the reference divides by the binary fraction `13421773 / 268435456`. -/
def invTemp : ℝ := 268435456 / 13421773

/-- The scaled score of query `b` against bank row `n`, as a sequence in `n` (zero beyond the bank). -/
def score (xR : Fin 512 → Fin 256 → ℝ) (fR : Fin 65536 → Fin 256 → ℝ) (b : Fin 512) (n : ℕ) : ℝ :=
  if h : n < 65536 then (∑ k : Fin 256, xR b k * fR ⟨n, h⟩ k) * invTemp else 0

theorem h65536 : 0 < 65536 := by decide

/-- The largest of the 65536 scores of a row. -/
def rowTop (Z : ℕ → ℝ) : ℝ := rowMax h65536 fun j : Fin 65536 => Z j.val

/-- The log-sum-exp of a row's scores, shifted by its largest score. -/
def lse (Z : ℕ → ℝ) : ℝ := rowTop Z + Real.log (expSum Z 65536 (rowTop Z))

/-- The mean over the queries of log-sum-exp minus the label's score. -/
def loss (xR : Fin 512 → Fin 256 → ℝ) (fR : Fin 65536 → Fin 256 → ℝ) (tgt : Fin 512 → ℕ) : ℝ :=
  (∑ b : Fin 512, (lse (score xR fR b) - score xR fR b (tgt b))) / 512

theorem isMaxOn_rowTop (Z : ℕ → ℝ) : IsMaxOn Z 65536 (rowTop Z) := by
  have h := isMaxOn_rowMax h65536 Z 0
  simp only [Nat.zero_add] at h
  exact h

end Cert.Spec

end
-- ==== Proof.KInd.lean ====
import proofs.«415887_j14611478741436_1_alg».proof.Proof.KPieces
import proofs.«415887_j14611478741436_1_alg».proof.Proof.KPay
import proofs.«415887_j14611478741436_1_alg».proof.Proof.Spec
import Idealize.ShloMosaic.Lib.Pipeline.Value

/-!
The two carried buffers after each grid point. With real normalized queries `x` and a real bank `f`, block `t` of the
bank (rows `2048 t … 2048 t + 2047`) contributes the scores `score b (2048 t + j)`; after point `n` the maximum buffer
holds, for each query, the largest of its first `2048 (n + 1)` scores and the sum buffer the sum of `exp (score - max)`
over them, by induction on the point. At the last point the output block is `max + log sum` over all 65536 scores.
-/

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.Lse

variable (m : (ℓ : Loc nD τ sig) → Buf (Elt Ideal) ℓ)
variable (c : Dev nD) (xR : Fin 512 → Fin 256 → ℝ) (fR : Fin 65536 → Fin 256 → ℝ)

/-- Block `t` of the bank over the reals. -/
def fblk (t : Fin cfg0.N) (j : Fin 2048) (k : Fin 256) : ℝ :=
  fR ⟨2048 * t.val + j.val, by have := t.isLt; have hN : cfg0.N = 32 := N_0; have := j.isLt; omega⟩ k

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The query window's block is the whole array at every point. -/
theorem iblk0_eq (hX : (V m c main_v2 : Vec Ideal S512x256 .f32) = Pay.arrX xR) (t : Fin cfg0.N) :
    (iblk m c 0 t : Vec Ideal S512x256 .f32) = Pay.arrX xR := by
  funext j
  unfold iblk
  rw [View.read_apply]
  show V m c main_v2 _ = _
  rw [hX]
  show ((xR _ _ : ℝ) : EReal) = ((xR (j 0) (j 1) : ℝ) : EReal)
  have e0 : ∀ y : S512x256.Idx, y = j → ((xR (y 0) (y 1) : ℝ) : EReal) = ((xR (j 0) (j 1) : ℝ) : EReal) := fun y h => by rw [h]
  refine e0 _ ?_
  funext a
  apply Fin.ext
  match a with
  | ⟨0, _⟩ => show win0_0.index t 0 * 512 + 1 * (j 0).val = (j 0).val; rw [(idx0 t).1]; omega
  | ⟨1, _⟩ => show win0_0.index t 1 * 256 + 1 * (j 1).val = (j 1).val; rw [(idx0 t).2]; omega

/-- The bank window's block at point `t` is rows `2048 t …` of the bank. -/
theorem iblk1_eq (hF : (V m c main_arg3 : Vec Ideal S65536x256 .f32) = fun i => ((fR (i 0) (i 1) : ℝ) : EReal)) (t : Fin cfg0.N) :
    (iblk m c 1 t : Vec Ideal S2048x256 .f32) = Pay.arrF (fblk fR t) := by
  funext j
  unfold iblk
  rw [View.read_apply]
  show V m c main_arg3 _ = _
  rw [hF]
  show ((fR _ _ : ℝ) : EReal) = ((fblk fR t (j 0) (j 1) : ℝ) : EReal)
  unfold fblk
  congr 2
  · apply Fin.ext
    show win0_1.index t 0 * 2048 + 1 * (j 0).val = 2048 * t.val + (j 0).val
    rw [(idx1 t).1]; omega
  · apply Fin.ext
    show win0_1.index t 1 * 256 + 1 * (j 1).val = (j 1).val
    rw [(idx1 t).2]; omega

/-- A block's scores are a stretch of the row's score sequence. -/
theorem zR_eq_score (t : Fin cfg0.N) (b : Fin 512) (j : Fin 2048) :
    Pay.zR xR (fblk fR t) b j = Cert.Spec.score xR fR b (2048 * t.val + j.val) := by
  have hlt : 2048 * t.val + j.val < 65536 := by have := t.isLt; have hN : cfg0.N = 32 := N_0; have := j.isLt; omega
  unfold Pay.zR Cert.Spec.score fblk
  rw [dif_pos hlt]
  rfl

section Points

/-- The first point: both buffers are reset, then updated with block 0. -/
theorem at_A (hX : (V m c main_v2 : Vec Ideal S512x256 .f32) = Pay.arrX xR) (hF : (V m c main_arg3 : Vec Ideal S65536x256 .f32) = fun i => ((fR (i 0) (i 1) : ℝ) : EReal)) (t : Fin cfg0.N) (h0 : t.val % 32 = 0) (h1 : ¬t.val % 32 = 31) :
    (outsAt0 m c t.val t.isLt).2.1 = k0_pay5 (F := Ideal) (Pay.arrX xR) (Pay.arrF (fblk fR t)) (k0_pay1 (F := Ideal))
    ∧ (outsAt0 m c t.val t.isLt).2.2
        = k0_pay6 (F := Ideal) (Pay.arrX xR) (Pay.arrF (fblk fR t)) (k0_pay1 (F := Ideal)) (k0_pay2 (F := Ideal)) := by
  rw [outsAt0_A m c t h0 h1]
  dsimp only
  rw [Pieces.sA0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    Pieces.sA1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    iblk0_eq m c xR hX t, iblk1_eq m c fR hF t]
  exact ⟨rfl, rfl⟩

/-- A middle point updates both buffers over what the point before left. -/
theorem at_B (hX : (V m c main_v2 : Vec Ideal S512x256 .f32) = Pay.arrX xR) (hF : (V m c main_arg3 : Vec Ideal S65536x256 .f32) = fun i => ((fR (i 0) (i 1) : ℝ) : EReal)) (t : Fin cfg0.N) (h0 : ¬t.val % 32 = 0) (h1 : ¬t.val % 32 = 31) :
    (outsAt0 m c t.val t.isLt).2.1 = k0_pay5 (F := Ideal) (Pay.arrX xR) (Pay.arrF (fblk fR t))
        (outsAt0 m c (t.val - 1) (Nat.lt_of_le_of_lt (Nat.sub_le _ _) t.isLt)).2.1
    ∧ (outsAt0 m c t.val t.isLt).2.2 = k0_pay6 (F := Ideal) (Pay.arrX xR) (Pay.arrF (fblk fR t))
        (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0 h1]
  dsimp only
  rw [Pieces.sB0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2,
    Pieces.sB1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2,
    iblk0_eq m c xR hX t, iblk1_eq m c fR hF t]
  exact ⟨rfl, rfl⟩

/-- The last point updates both buffers the same way and writes `max + log sum` of the updated buffers. -/
theorem at_C (hX : (V m c main_v2 : Vec Ideal S512x256 .f32) = Pay.arrX xR) (hF : (V m c main_arg3 : Vec Ideal S65536x256 .f32) = fun i => ((fR (i 0) (i 1) : ℝ) : EReal)) (t : Fin cfg0.N) (h0 : ¬t.val % 32 = 0) (h1 : t.val % 32 = 31) :
    (outsAt0 m c t.val t.isLt).2.1 = k0_pay5 (F := Ideal) (Pay.arrX xR) (Pay.arrF (fblk fR t))
        (outsAt0 m c (t.val - 1) (Nat.lt_of_le_of_lt (Nat.sub_le _ _) t.isLt)).2.1
    ∧ (outsAt0 m c t.val t.isLt).2.2 = k0_pay6 (F := Ideal) (Pay.arrX xR) (Pay.arrF (fblk fR t))
        (outsAt0 m c (t.val - 1) (Nat.lt_of_le_of_lt (Nat.sub_le _ _) t.isLt)).2.1 (outsAt0 m c (t.val - 1) (Nat.lt_of_le_of_lt (Nat.sub_le _ _) t.isLt)).2.2
    ∧ (outsAt0 m c t.val t.isLt).1 = k0_pay7 (F := Ideal) (outsAt0 m c t.val t.isLt).2.1 (outsAt0 m c t.val t.isLt).2.2 := by
  rw [outsAt0_C m c t h0 h1]
  dsimp only
  rw [Pieces.sC0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2,
    Pieces.sC1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2,
    Pieces.oC2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2.1 (outsAt0 m c (t.val - 1) (Nat.lt_of_le_of_lt (Nat.sub_le _ _) t.isLt)).2.2,
    iblk0_eq m c xR hX t, iblk1_eq m c fR hF t]
  exact ⟨rfl, rfl, rfl⟩

/-- A block's largest score, as a maximum of the stretch of the row's score sequence it covers. -/
theorem blk_max (t : Fin cfg0.N) (b : Fin 512) :
    IsMaxOn (fun j => Cert.Spec.score xR fR b (2048 * t.val + j)) 2048 (rowMax Pay.h2048 (Pay.zR xR (fblk fR t) b)) := by
  have h := isMaxOn_rowMax Pay.h2048 (Cert.Spec.score xR fR b) (2048 * t.val)
  have e : (fun j : Fin 2048 => Cert.Spec.score xR fR b (2048 * t.val + j.val)) = Pay.zR xR (fblk fR t) b :=
    funext fun j => (zR_eq_score xR fR t b j).symm
  rw [e] at h
  exact h

/-- A block's sum of shifted exponentials, over the stretch of the score sequence. -/
theorem blk_sum (t : Fin cfg0.N) (b : Fin 512) (m' : ℝ) :
    ∑ j : Fin 2048, Real.exp (Pay.zR xR (fblk fR t) b j - m')
      = ∑ j ∈ Finset.range 2048, Real.exp (Cert.Spec.score xR fR b (2048 * t.val + j) - m') := by
  rw [← Fin.sum_univ_eq_sum_range (fun j => Real.exp (Cert.Spec.score xR fR b (2048 * t.val + j) - m')) 2048]
  exact Finset.sum_congr rfl fun j _ => by rw [zR_eq_score]

/-- After point `n` the two buffers hold, per query, the largest of the first `2048 (n + 1)` scores and the sum of the
    shifted exponentials over them. -/
def Inv (n : ℕ) (h : n < cfg0.N) (mR lR : Fin 512 → ℝ) : Prop :=
  (outsAt0 m c n h).2.1 = Pay.arrC mR ∧ (outsAt0 m c n h).2.2 = Pay.arrC lR
  ∧ ∀ b, IsMaxOn (Cert.Spec.score xR fR b) (2048 * (n + 1)) (mR b)
      ∧ lR b = expSum (Cert.Spec.score xR fR b) (2048 * (n + 1)) (mR b)

theorem inv_zero (hX : (V m c main_v2 : Vec Ideal S512x256 .f32) = Pay.arrX xR) (hF : (V m c main_arg3 : Vec Ideal S65536x256 .f32) = fun i => ((fR (i 0) (i 1) : ℝ) : EReal)) (h : 0 < cfg0.N) : ∃ mR lR, Inv m c xR fR 0 h mR lR := by
  obtain ⟨e1, e2⟩ := at_A m c xR fR hX hF ⟨0, h⟩ rfl (by show ¬0 % 32 = 31; decide)
  refine ⟨fun b => rowMax Pay.h2048 (Pay.zR xR (fblk fR ⟨0, h⟩) b),
    fun b => ∑ j : Fin 2048, Real.exp (Pay.zR xR (fblk fR ⟨0, h⟩) b j - rowMax Pay.h2048 (Pay.zR xR (fblk fR ⟨0, h⟩) b)), ?_, ?_, fun b => ⟨?_, ?_⟩⟩
  · exact e1.trans (Pay.pay5_first xR (fblk fR ⟨0, h⟩))
  · exact e2.trans (Pay.pay6_first xR (fblk fR ⟨0, h⟩))
  · have hb := blk_max xR fR ⟨0, h⟩ b
    simp only [Nat.mul_zero, Nat.zero_add] at hb
    exact hb
  · dsimp only
    rw [blk_sum xR fR ⟨0, h⟩ b]
    simp only [Nat.mul_zero, Nat.zero_add]
    rfl

theorem inv_succ (hX : (V m c main_v2 : Vec Ideal S512x256 .f32) = Pay.arrX xR) (hF : (V m c main_arg3 : Vec Ideal S65536x256 .f32) = fun i => ((fR (i 0) (i 1) : ℝ) : EReal)) (n : ℕ) (h : n + 1 < cfg0.N) (mR lR : Fin 512 → ℝ) (ih : Inv m c xR fR n (Nat.lt_of_succ_lt h) mR lR) :
    ∃ mR' lR', Inv m c xR fR (n + 1) h mR' lR' := by
  obtain ⟨ihm, ihl, ihb⟩ := ih
  have hN : cfg0.N = 32 := N_0
  have h0 : ¬(⟨n + 1, h⟩ : Fin cfg0.N).val % 32 = 0 := by dsimp only; omega
  have key : (outsAt0 m c (n + 1) h).2.1 = k0_pay5 (F := Ideal) (Pay.arrX xR) (Pay.arrF (fblk fR ⟨n + 1, h⟩)) (Pay.arrC mR)
      ∧ (outsAt0 m c (n + 1) h).2.2 = k0_pay6 (F := Ideal) (Pay.arrX xR) (Pay.arrF (fblk fR ⟨n + 1, h⟩)) (Pay.arrC mR) (Pay.arrC lR) := by
    by_cases h1 : (⟨n + 1, h⟩ : Fin cfg0.N).val % 32 = 31
    · obtain ⟨e1, e2, -⟩ := at_C m c xR fR hX hF ⟨n + 1, h⟩ h0 h1
      refine ⟨e1.trans ?_, e2.trans ?_⟩
      · show k0_pay5 _ _ (outsAt0 m c n _).2.1 = _
        rw [ihm]
      · show k0_pay6 _ _ (outsAt0 m c n _).2.1 (outsAt0 m c n _).2.2 = _
        rw [ihm, ihl]
    · obtain ⟨e1, e2⟩ := at_B m c xR fR hX hF ⟨n + 1, h⟩ h0 h1
      refine ⟨e1.trans ?_, e2.trans ?_⟩
      · show k0_pay5 _ _ (outsAt0 m c n _).2.1 = _
        rw [ihm]
      · show k0_pay6 _ _ (outsAt0 m c n _).2.1 (outsAt0 m c n _).2.2 = _
        rw [ihm, ihl]
  refine ⟨fun b => max (mR b) (rowMax Pay.h2048 (Pay.zR xR (fblk fR ⟨n + 1, h⟩) b)),
    fun b => Real.exp (mR b - max (mR b) (rowMax Pay.h2048 (Pay.zR xR (fblk fR ⟨n + 1, h⟩) b))) * lR b
      + ∑ j : Fin 2048, Real.exp (Pay.zR xR (fblk fR ⟨n + 1, h⟩) b j - max (mR b) (rowMax Pay.h2048 (Pay.zR xR (fblk fR ⟨n + 1, h⟩) b))),
    key.1.trans (Pay.pay5_coe xR (fblk fR ⟨n + 1, h⟩) mR), key.2.trans (Pay.pay6_coe xR (fblk fR ⟨n + 1, h⟩) mR lR), fun b => ⟨?_, ?_⟩⟩
  · have hb := blk_max xR fR ⟨n + 1, h⟩ b
    have := (ihb b).1.append hb
    rw [show 2048 * (n + 1 + 1) = 2048 * (n + 1) + 2048 from by ring]
    exact this
  · dsimp only
    rw [blk_sum xR fR ⟨n + 1, h⟩ b, (ihb b).2]
    rw [show 2048 * (n + 1 + 1) = 2048 * (n + 1) + 2048 from by ring]
    exact expSum_append _ _ _ _ _

theorem inv_all (hX : (V m c main_v2 : Vec Ideal S512x256 .f32) = Pay.arrX xR) (hF : (V m c main_arg3 : Vec Ideal S65536x256 .f32) = fun i => ((fR (i 0) (i 1) : ℝ) : EReal)) : ∀ (n : ℕ) (h : n < cfg0.N), ∃ mR lR, Inv m c xR fR n h mR lR
  | 0, h => inv_zero m c xR fR hX hF h
  | n + 1, h => by
    obtain ⟨mR, lR, ih⟩ := inv_all hX hF n (Nat.lt_of_succ_lt h)
    exact inv_succ m c xR fR hX hF n h mR lR ih

/-- The last point. -/
abbrev tLast : Fin cfg0.N := ⟨31, by rw [show cfg0.N = 32 from N_0]; decide⟩

/-- What the last point writes to the output block: each query's log-sum-exp over all 65536 scores. -/
theorem out_last (hX : (V m c main_v2 : Vec Ideal S512x256 .f32) = Pay.arrX xR) (hF : (V m c main_arg3 : Vec Ideal S65536x256 .f32) = fun i => ((fR (i 0) (i 1) : ℝ) : EReal)) : (outsAt0 m c tLast.val tLast.isLt).1 = Pay.arrC fun b => Cert.Spec.lse (Cert.Spec.score xR fR b) := by
  obtain ⟨mR, lR, em, el, hb⟩ := inv_all m c xR fR hX hF 31 tLast.isLt
  obtain ⟨-, -, e3⟩ := at_C m c xR fR hX hF tLast (by decide) (by decide)
  rw [e3]
  show k0_pay7 (outsAt0 m c 31 _).2.1 (outsAt0 m c 31 _).2.2 = _
  rw [em, el]
  have hpos : ∀ b, 0 < lR b := fun b => by rw [(hb b).2]; exact expSum_pos _ (by decide) _
  rw [Pay.pay7_coe mR lR hpos]
  have hm : ∀ b, mR b = Cert.Spec.rowTop (Cert.Spec.score xR fR b) := fun b =>
    (hb b).1.unique (Cert.Spec.isMaxOn_rowTop _)
  have e : (fun b => mR b + Real.log (lR b)) = fun b => Cert.Spec.lse (Cert.Spec.score xR fR b) := by
    funext b
    unfold Cert.Spec.lse
    rw [(hb b).2, hm b]
  rw [e]

end Points

end Cert.KernelIdeal.KVal

end
-- ==== Proof.KTailDef.lean ====
import proofs.«415887_j14611478741436_1_alg».proof.Proof.Gen.KernelIdeal

/-!
The host operations after the kernel region: from the normalized queries, the per-query log-sum-exp the region wrote,
the labels and the bank they gather each label's bank row, take its scaled inner product with the query, subtract it
from the log-sum-exp and average over the queries.
-/

noncomputable section

namespace Cert.KernelIdeal.Tail

open Idealize.ShloMosaic Idealize.ShloMosaic.TcCoe
open Cert.KernelIdeal Cert.KernelIdeal.Gen

variable {F : FTy → Type} [FloatOps F]

/-- The labels with a negative one wrapped around, as a column of start indices. -/
def wrapped (x2 : IVec S512 32) : IVec S512x1 32 :=
  broadcastInDim S512x1 ![0] bcast_S512_S512x1_0
    (select (cmpi .slt x2 (broadcastInDim S512 ![] bcast_S_S512 (constantI S_ 32 0#32)))
      (addi x2 (broadcastInDim S512 ![] bcast_S_S512 (constantI S_ 32 65536#32))) x2)

/-- Each query's scaled score against the bank row its label names. -/
def labelScore (xn : FVec F S512x256 .f32) (x2 : IVec S512 32) (x3 : FVec F S65536x256 .f32) : FVec F S512x1 .f32 :=
  Host.divf (broadcastInDim S512x1 ![0] bcast_S512_S512x1_0
      (Host.reduceAdd (mulf xn (Host.gather gather_S65536x256_S512x1_S512x256_1_0_n_n_0_1_1256 x3 (wrapped x2)))
        (constant S_ .f32 0x00000000#32) reducesTo_S512x256_S512_d1 h_S_))
    (broadcastInDim S512x1 ![] bcast_S_S512x1 (constant S_ .f32 0x3D4CCCCD#32))

/-- The mean over the queries of log-sum-exp minus the label's score. -/
def tail (xn : FVec F S512x256 .f32) (lseA : FVec F S512x1 .f32) (x2 : IVec S512 32) (x3 : FVec F S65536x256 .f32) : FVec F S_ .f32 :=
  Host.divf (Host.reduceAdd (subf lseA (labelScore xn x2 x3)) (constant S_ .f32 0x00000000#32) reducesTo_S512x1_S_d0_1 h_S_)
    (constant S_ .f32 0x44000000#32)

end Cert.KernelIdeal.Tail

end
-- ==== Proof.KHost.lean ====
import proofs.«415887_j14611478741436_1_alg».proof.Proof.Gen.KernelIdeal.Frame
import proofs.«415887_j14611478741436_1_alg».proof.Proof.KTailDef
import Idealize.ShloMosaic.Lib.Pipeline.Value
import Idealize.ShloMosaic.Lib.StableHlo.Run

/-!
The host operations around the kernel region, read as functions of the arrays: before the region each query row is
divided by its Euclidean norm; after it the label scores are subtracted from the region's output and averaged.
-/

set_option maxRecDepth 16384

noncomputable section

namespace Cert.KernelIdeal.KHost

open Idealize.ShloMosaic Idealize.ShloMosaic.TcCoe Idealize.SL.Sem
open Idealize.ShloMosaic.Pipeline (Dat)
open Cert.KernelIdeal Cert.KernelIdeal.Gen

variable {F : FTy → Type} [FloatOps F] [Named F]
variable (m : (ℓ : Loc nD τ sig) → Buf (Elt F) ℓ)

/-- The region finds the queries normalized: each row divided by the square root of its sum of squares. -/
theorem V_main_v2 (c : Dev nD) :
    (V m c main_v2 : FVec F S512x256 .f32)
      = Host.divf (m ((c : Thread nD τ).loc main_arg0)) (broadcastInDim S512x256 ![0, 1] bcast_S512x1_S512x256_0_1
          (Host.sqrt (broadcastInDim S512x1 ![0] bcast_S512_S512x1_0
            (Host.reduceAdd (mulf (m ((c : Thread nD τ).loc main_arg0)) (m ((c : Thread nD τ).loc main_arg0)))
              (constant S_ .f32 0x00000000#32) reducesTo_S512x256_S512_d1 h_S_)))) := by
  dsimp only [Gen.V, Gen.V0]
  simp only [Gen.hostOps0, Gen.hostOps0_1, List.flatten_cons, List.flatten_nil, List.append_nil, List.cons_append, List.nil_append]
  after_results
  rfl

/-- The host operations after the region as one function of the four buffers they read, whatever the buffers hold. -/
private theorem tail_after (W : Valuation τ sig (Elt F)) :
    (StableHlo.after (hostOps1 (F := F)) W (Proc.devRef .tc main_v18) : FVec F S_ .f32)
      = Tail.tail (W (Proc.devRef .tc main_v2)) (W (Proc.devRef .tc main_v3)) (W (Proc.devRef .tc main_arg2)) (W (Proc.devRef .tc main_arg3)) := by
  after_results
  rfl

/-- The result buffer after the host operations that follow the region: the tail of the normalized queries, the
    region's output array, the labels and the bank. -/
theorem tail_eq (c : Dev nD) :
    (Pipeline.afterTail₀ cfgs (dats m) 0 (V0 m) [hostOps1] c main_v18 : FVec F S_ .f32)
      = Tail.tail (V m c main_v2) ((dats m 0 c).arrAt 2 cfg0.N) (m ((c : Thread nD τ).loc main_arg2)) (m ((c : Thread nD τ).loc main_arg3)) := by
  unfold Pipeline.afterTail₀
  simp only [List.flatten_cons, List.flatten_nil, List.append_nil]
  refine (tail_after _).trans ?_
  refine congr (congr (congr (congrArg Tail.tail ?_) ?_) ?_) ?_
  · exact (Pipeline.withArrays_arr _ launch0.win.arr_inj c _ _ (0 : Fin 3)).trans (((dats m 0 c).arrAt_in 0 rfl _).trans (A_eq m c 0))
  · exact Pipeline.withArrays_arr _ launch0.win.arr_inj c _ _ (2 : Fin 3)
  · exact (Pipeline.withArrays_of_ne _ c (V0 m c) _ main_arg2 (by decide : ∀ w, Pipeline.arrRef spec0 w ≠ main_arg2)).trans (V_main_arg2 m c)
  · exact (Pipeline.withArrays_arr _ launch0.win.arr_inj c _ _ (1 : Fin 3)).trans (((dats m 0 c).arrAt_in 1 rfl _).trans ((A_eq m c 1).trans (V_main_arg3 m c)))

end Cert.KernelIdeal.KHost

end
-- ==== Proof.KTail.lean ====
import proofs.«415887_j14611478741436_1_alg».proof.Proof.KTailDef
import proofs.«415887_j14611478741436_1_alg».proof.Proof.Spec
import Idealize.ShloMosaic.PureOps.Ideal.Laws
import Idealize.ShloMosaic.Lib.ValueIdx
import Idealize.ShloMosaic.Lib.ValueLayout
import Idealize.ShloMosaic.Lib.Pipeline.Value

/-!
The host operations after the kernel region, on real data.
-/

noncomputable section

namespace Cert.KernelIdeal.Tail

open Idealize.ShloMosaic Idealize.ShloMosaic.TcCoe Idealize.ShloMosaic.ValueIdx
open Cert.KernelIdeal Cert.KernelIdeal.Gen

variable {F : FTy → Type} [FloatOps F]

/-- Real families as arrays of extended reals. -/
abbrev arrX (xR : Fin 512 → Fin 256 → ℝ) : FVec Ideal S512x256 .f32 := fun i => ((xR (i 0) (i 1) : ℝ) : EReal)
abbrev arrBank (fR : Fin 65536 → Fin 256 → ℝ) : FVec Ideal S65536x256 .f32 := fun i => ((fR (i 0) (i 1) : ℝ) : EReal)
abbrev arrC (v : Fin 512 → ℝ) : FVec Ideal S512x1 .f32 := fun i => ((v (i 0) : ℝ) : EReal)

/-! ### A label in range, as a start index -/

private theorem toInt_toNat_of_nonneg {w : BitVec 32} (h0 : 0 ≤ w.toInt) : w.toInt.toNat = w.toNat := by
  have h32 : w.toNat < 2 ^ 32 := w.isLt
  rw [BitVec.toInt_eq_toNat_cond] at h0 ⊢
  split_ifs at h0 ⊢ with h <;> omega

private theorem toNat_lt_of_range {w : BitVec 32} (h0 : 0 ≤ w.toInt) (h1 : w.toInt < 65536) : w.toNat < 65536 := by
  have h32 : w.toNat < 2 ^ 32 := w.isLt
  rw [BitVec.toInt_eq_toNat_cond] at h0 h1
  split_ifs at h0 h1 with h <;> omega

/-- A label that is not negative is its own start index. -/
private theorem wrapped_apply (x2 : IVec S512 32) (b : Fin 512) (u : Fin 1) (h0 : 0 ≤ (x2 (ix1 b)).toInt) :
    wrapped x2 (ix2 b u) = x2 (ix1 b) := by
  unfold wrapped
  refine (broadcastInDim_apply _ bcast_S512_S512x1_0 _ (ix2 b u) (ix1 b) (fun a => match a with
    | ⟨0, _⟩ => by show b.val = if (512 : ℕ) = 1 then 0 else b.val; rw [if_neg (by decide)])).trans ?_
  have hs : (x2 (ix1 b)).slt 0#32 = false := by
    rw [Bool.eq_false_iff]
    intro h
    rw [BitVec.slt_iff_toInt_lt] at h
    have hz : (0#32 : BitVec 32).toInt = 0 := by decide
    omega
  show Scalar.select (IntOp.cmpi .slt (x2 (ix1 b)) 0#32) (IntOp.addi (x2 (ix1 b)) 65536#32) (x2 (ix1 b)) = x2 (ix1 b)
  unfold Scalar.select IntOp.cmpi
  rw [hs]
  rfl

/-! ### The row gather at an index -/

private theorem gather_axis0 {w : Nat} (idx : IVec S512x1 w) (b : Fin 512) (k : Fin 256) :
    (gather_S65536x256_S512x1_S512x256_1_0_n_n_0_1_1256.operandIdx (ix2 b k) idx 0).val = min (idx (ix2 b (0 : Fin 1))).toInt.toNat 65535 := by
  show gather_S65536x256_S512x1_S512x256_1_0_n_n_0_1_1256.start (ix2 b k) idx 0 + gather_S65536x256_S512x1_S512x256_1_0_n_n_0_1_1256.batchCoord (ix2 b k) 0 + gather_S65536x256_S512x1_S512x256_1_0_n_n_0_1_1256.offCoord (ix2 b k) 0 = _
  rw [GatherDims.batchCoord_eq_zero gather_S65536x256_S512x1_S512x256_1_0_n_n_0_1_1256 (ix2 b k) 0 (by decide), GatherDims.offCoord_eq_zero gather_S65536x256_S512x1_S512x256_1_0_n_n_0_1_1256 (ix2 b k) 0 (by decide)]
  simp only [Nat.add_zero]
  unfold GatherDims.start
  rw [dif_pos (show (0 : Fin S65536x256.rank) ∈ gather_S65536x256_S512x1_S512x256_1_0_n_n_0_1_1256.startIndexMap by decide)]
  have hsi : gather_S65536x256_S512x1_S512x256_1_0_n_n_0_1_1256.siIdx (ix2 b k) ⟨List.idxOf (0 : Fin S65536x256.rank) gather_S65536x256_S512x1_S512x256_1_0_n_n_0_1_1256.startIndexMap,
      List.idxOf_lt_length_iff.2 (by decide)⟩ = ix2 b (0 : Fin 1) := by
    funext c; refine Fin.ext ?_
    match c with
    | ⟨0, _⟩ => rfl
    | ⟨1, _⟩ => rfl
  rw [hsi]
  rfl

private theorem gather_axis1 {w : Nat} (idx : IVec S512x1 w) (b : Fin 512) (k : Fin 256) :
    (gather_S65536x256_S512x1_S512x256_1_0_n_n_0_1_1256.operandIdx (ix2 b k) idx 1).val = k.val := by
  show gather_S65536x256_S512x1_S512x256_1_0_n_n_0_1_1256.start (ix2 b k) idx 1 + gather_S65536x256_S512x1_S512x256_1_0_n_n_0_1_1256.batchCoord (ix2 b k) 1 + gather_S65536x256_S512x1_S512x256_1_0_n_n_0_1_1256.offCoord (ix2 b k) 1 = _
  rw [GatherDims.batchCoord_eq_zero gather_S65536x256_S512x1_S512x256_1_0_n_n_0_1_1256 (ix2 b k) 1 (by decide)]
  unfold GatherDims.start
  rw [dif_neg (show ¬(1 : Fin S65536x256.rank) ∈ gather_S65536x256_S512x1_S512x256_1_0_n_n_0_1_1256.startIndexMap by decide)]
  unfold GatherDims.offCoord
  rw [dif_pos (show (1 : Fin S65536x256.rank) ∈ gather_S65536x256_S512x1_S512x256_1_0_n_n_0_1_1256.sKept by decide)]
  simp only [Nat.zero_add, Nat.add_zero]
  rfl

/-- The gather of rows reads, at `(b, k)`, the bank at the row the start index of `b` names, clamped into the bank, and column `k`. -/
private theorem gather_row_apply {α : Type} {w : Nat} (x : S65536x256.Idx → α) (idx : IVec S512x1 w) (b : Fin 512) (k : Fin 256) :
    Host.gather gather_S65536x256_S512x1_S512x256_1_0_n_n_0_1_1256 x idx (ix2 b k)
      = x (ix2 (⟨min (idx (ix2 b (0 : Fin 1))).toInt.toNat 65535, by omega⟩ : Fin 65536) k) := by
  unfold Host.gather
  refine congrArg x (funext fun a => Fin.ext ?_)
  match a with
  | ⟨0, _⟩ => exact gather_axis0 idx b k
  | ⟨1, _⟩ => exact gather_axis1 idx b k

/-! ### The two constants -/

private theorem ofBits_temp : Ideal.ofBits .f32 0x3D4CCCCD#32 = ((13421773 / 268435456 : ℝ) : EReal) := by
  simp [Ideal.ofBits, Ideal.ieee, -EReal.coe_mul]; norm_num

private theorem ofBits_count : Ideal.ofBits .f32 0x44000000#32 = ((512 : ℝ) : EReal) := by
  simp [Ideal.ofBits, Ideal.ieee, -EReal.coe_mul]; norm_num

/-! ### The label's score -/

private theorem labelScore_apply (xn : FVec Ideal S512x256 .f32) (x2 : IVec S512 32) (x3 : FVec Ideal S65536x256 .f32)
    (b : Fin 512) (u : Fin 1) (h0 : 0 ≤ (x2 (ix1 b)).toInt) (h1 : (x2 (ix1 b)).toInt < 65536) :
    labelScore (F := Ideal) xn x2 x3 (ix2 b u)
      = Ideal.div (∑ k : Fin 256, xn (ix2 b k) * x3 (ix2 (⟨(x2 (ix1 b)).toNat, toNat_lt_of_range h0 h1⟩ : Fin 65536) k))
          (Ideal.ofBits .f32 0x3D4CCCCD#32) := by
  unfold labelScore
  show Ideal.div _ (Ideal.ofBits .f32 0x3D4CCCCD#32) = _
  refine congrArg (Ideal.div · (Ideal.ofBits .f32 0x3D4CCCCD#32)) ?_
  refine (broadcastInDim_apply _ bcast_S512_S512x1_0 _ (ix2 b u) (ix1 b) (fun a => match a with
    | ⟨0, _⟩ => by show b.val = if (512 : ℕ) = 1 then 0 else b.val; rw [if_neg (by decide)])).trans ?_
  refine (Ideal.hostReduceAdd_single reducesTo_S512x256_S512_d1 (by decide : S512x256.Reduces [1] S512) _ _ (ix1 b)).trans ?_
  refine (congrArg (· + _) Ideal.ofBits_zero_f32).trans ?_
  rw [zero_add]
  refine Finset.sum_congr rfl fun k _ => ?_
  have e : (by decide : S512x256.Reduces [1] S512).lift (ix1 b) k = ix2 b k :=
    funext fun a => Fin.ext (by match a with | ⟨0, _⟩ => rfl | ⟨1, _⟩ => rfl)
  rw [e]
  refine (mulf_apply _ _ _).trans ?_
  refine congrArg (xn (ix2 b k) * ·) ?_
  refine (gather_row_apply x3 (wrapped x2) b k).trans ?_
  refine congrArg (fun t : Fin 65536 => x3 (ix2 t k)) (Fin.ext ?_)
  show min (wrapped x2 (ix2 b (0 : Fin 1))).toInt.toNat 65535 = (x2 (ix1 b)).toNat
  rw [wrapped_apply x2 b 0 h0, toInt_toNat_of_nonneg h0]
  have := toNat_lt_of_range h0 h1
  omega

private theorem labelScore_coe (xR : Fin 512 → Fin 256 → ℝ) (fR : Fin 65536 → Fin 256 → ℝ) (x2 : IVec S512 32)
    (b : Fin 512) (u : Fin 1) (h0 : 0 ≤ (x2 (ix1 b)).toInt) (h1 : (x2 (ix1 b)).toInt < 65536) :
    labelScore (F := Ideal) (arrX xR) x2 (arrBank fR) (ix2 b u) = ((Cert.Spec.score xR fR b (x2 (ix1 b)).toNat : ℝ) : EReal) := by
  rw [labelScore_apply (arrX xR) x2 (arrBank fR) b u h0 h1, ofBits_temp, Ideal.div_coe (by norm_num)]
  unfold Cert.Spec.score
  rw [dif_pos (toNat_lt_of_range h0 h1)]
  unfold Cert.Spec.invTemp
  rw [EReal.coe_mul, ← Cert.Lse.coe_sum]
  refine congrArg₂ (· * ·) (Finset.sum_congr rfl fun k _ => (EReal.coe_mul _ _).symm) ?_
  norm_num

/-! ### The mean -/

/-- On real data with labels in range the tail is the mean of the differences. -/
theorem tail_coe (xR : Fin 512 → Fin 256 → ℝ) (fR : Fin 65536 → Fin 256 → ℝ) (lseR : Fin 512 → ℝ) (x2 : IVec S512 32)
    (hx2 : ∀ b : Fin 512, 0 ≤ (x2 (ix1 b)).toInt ∧ (x2 (ix1 b)).toInt < 65536) :
    tail (F := Ideal) (arrX xR) (arrC lseR) x2 (arrBank fR) ix0
      = (((∑ b : Fin 512, (lseR b - Cert.Spec.score xR fR b (x2 (ix1 b)).toNat)) / 512 : ℝ) : EReal) := by
  unfold tail
  show Ideal.div (Host.reduceAdd (F := Ideal) (subf (arrC lseR) (labelScore (F := Ideal) (arrX xR) x2 (arrBank fR)))
      (constant S_ .f32 0x00000000#32) reducesTo_S512x1_S_d0_1 h_S_ ix0) (Ideal.ofBits .f32 0x44000000#32) = _
  have hs : Host.reduceAdd (F := Ideal) (subf (arrC lseR) (labelScore (F := Ideal) (arrX xR) x2 (arrBank fR)))
      (constant S_ .f32 0x00000000#32) reducesTo_S512x1_S_d0_1 h_S_ ix0
        = ((∑ b : Fin 512, (lseR b - Cert.Spec.score xR fR b (x2 (ix1 b)).toNat) : ℝ) : EReal) := by
    refine (Ideal.hostReduceAdd_total reducesTo_S512x1_S_d0_1 (fun a => a.elim0) _ _ ix0).trans ?_
    refine (congrArg (· + _) Ideal.ofBits_zero_f32).trans ?_
    rw [zero_add, sum_idx2, ← Cert.Lse.coe_sum]
    refine Finset.sum_congr rfl fun b _ => ?_
    rw [Fin.sum_univ_one]
    refine (subf_apply _ _ _).trans ?_
    rw [labelScore_coe xR fR x2 b 0 (hx2 b).1 (hx2 b).2, EReal.coe_sub]
  rw [hs, ofBits_count, Ideal.div_coe (by norm_num), ← EReal.coe_mul]
  refine congrArg (fun r : ℝ => (r : EReal)) ?_
  exact mul_one_div _ _

end Cert.KernelIdeal.Tail

end
-- ==== Proof.Normalize.lean ====
import Idealize.ShloMosaic.PureOps.Ideal
import Idealize.ShloMosaic.PureOps.Ideal.Laws
import Idealize.ShloMosaic.Lib.ValueIdx
import Idealize.ShloMosaic.Lib.Pipeline.Value
import Mathlib.Analysis.SpecialFunctions.Sqrt

/-!
Dividing each row of a real matrix by its Euclidean norm, computed on the extended reals, stays real when the
row's sum of squares is positive: entry `(b, k)` becomes `x b k / √(∑ x b k'²)`.
-/

noncomputable section

namespace Cert.Normalize

open Idealize.ShloMosaic Idealize.ShloMosaic.ValueIdx

abbrev Sx : Shape := ⟨2, ![512, 256]⟩
abbrev Sr : Shape := ⟨1, ![512]⟩
abbrev Sc : Shape := ⟨2, ![512, 1]⟩
abbrev S0 : Shape := ⟨0, ![]⟩

/-- A finite sum of real numbers, each read as an extended real, is the real sum read as an extended real. -/
private theorem coe_sum' {ι : Type} (s : Finset ι) (g : ι → ℝ) : (∑ i ∈ s, ((g i : ℝ) : EReal)) = ((∑ i ∈ s, g i : ℝ) : EReal) := by
  classical
  induction s using Finset.induction_on with
  | empty => simp
  | insert a s ha ih => rw [Finset.sum_insert ha, Finset.sum_insert ha, ih, EReal.coe_add]

/-- The row-normalized matrix over the reals. -/
def unit (xin : Fin 512 → Fin 256 → ℝ) (b : Fin 512) (k : Fin 256) : ℝ :=
  xin b k / Real.sqrt (∑ k' : Fin 256, xin b k' * xin b k')

theorem normalized_coe (xin : Fin 512 → Fin 256 → ℝ) (hpos : ∀ b, 0 < ∑ k : Fin 256, xin b k * xin b k)
    (hb1 : Sc.BroadcastsInDim Sx (![0, 1] : Fin 2 → Fin Sx.rank)) (hb0 : Sr.BroadcastsInDim Sc (![0] : Fin 1 → Fin Sc.rank))
    (hr : Sx.ReducesTo [1] Sr) (h0 : 0 < S0.numel) :
    Host.divf (F := Ideal) (fun i : Sx.Idx => ((xin (i 0) (i 1) : ℝ) : EReal))
        (broadcastInDim Sx ![0, 1] hb1 (Host.sqrt (broadcastInDim Sc ![0] hb0
          (Host.reduceAdd (mulf (fun i : Sx.Idx => ((xin (i 0) (i 1) : ℝ) : EReal)) (fun i : Sx.Idx => ((xin (i 0) (i 1) : ℝ) : EReal)))
            (constant S0 .f32 0x00000000#32) hr h0))))
      = fun i : Sx.Idx => ((unit xin (i 0) (i 1) : ℝ) : EReal) := by
  have hR : Sx.Reduces [1] Sr := by decide
  funext i
  have hsum : Host.reduceAdd (F := Ideal) (mulf (fun i : Sx.Idx => ((xin (i 0) (i 1) : ℝ) : EReal)) (fun i : Sx.Idx => ((xin (i 0) (i 1) : ℝ) : EReal)))
      (constant S0 .f32 0x00000000#32) hr h0 (ix1 (i 0)) = ((∑ k : Fin 256, xin (i 0) k * xin (i 0) k : ℝ) : EReal) := by
    show Ideal.hostReduceAdd hr _ _ _ = _
    rw [Ideal.hostReduceAdd_single hr hR]
    show Ideal.ofBits .f32 0x00000000#32 + ∑ k : Fin 256, ((xin (i 0) k : ℝ) : EReal) * ((xin (i 0) k : ℝ) : EReal) = _
    rw [Ideal.ofBits_zero_f32, zero_add]
    simp only [← EReal.coe_mul]
    exact coe_sum' _ _
  have hs := hpos (i 0)
  have hne : Real.sqrt (∑ k : Fin 256, xin (i 0) k * xin (i 0) k) ≠ 0 := (Real.sqrt_pos.2 hs).ne'
  show Ideal.div ((xin (i 0) (i 1) : ℝ) : EReal) (broadcastInDim (s := Sc) Sx (![0, 1] : Fin 2 → Fin Sx.rank) hb1 _ i) = _
  rw [broadcastInDim_apply _ hb1 _ i (ix2 (i 0) (0 : Fin 1)) (fun a => match a with | ⟨0, _⟩ => rfl | ⟨1, _⟩ => rfl)]
  show Ideal.div _ (Ideal.sqrt (broadcastInDim (s := Sr) Sc (![0] : Fin 1 → Fin Sc.rank) hb0 _ (ix2 (i 0) (0 : Fin 1)))) = _
  rw [broadcastInDim_apply _ hb0 _ (ix2 (i 0) (0 : Fin 1)) (ix1 (i 0)) (fun a => match a with | ⟨0, _⟩ => rfl), hsum,
    Ideal.sqrt_coe, if_neg (not_lt.2 hs.le), Ideal.div_coe hne, ← EReal.coe_mul]
  unfold unit
  rw [mul_one_div]

end Cert.Normalize

end
-- ==== Proof.KFinal.lean ====
import proofs.«415887_j14611478741436_1_alg».proof.Proof.KInd
import proofs.«415887_j14611478741436_1_alg».proof.Proof.KHost
import proofs.«415887_j14611478741436_1_alg».proof.Proof.KTail
import proofs.«415887_j14611478741436_1_alg».proof.Proof.Normalize
import Idealize.ShloMosaic.Lib.Pipeline.Value

/-!
The idealized kernel program's run on real data: the region's output array ends at each query's log-sum-exp (its one
block, written back after the last grid point, is the whole array), and the host operations after the region turn it
into the specification's loss.
-/

set_option maxRecDepth 16384

noncomputable section

namespace Cert.KernelIdeal.KVal

open Idealize.ShloMosaic Idealize.ShloMosaic.TcCoe Idealize.SL.Sem Idealize.ShloMosaic.ValueIdx
open Idealize.ShloMosaic.Pipeline (Dat)
open Cert.KernelIdeal Cert.KernelIdeal.Gen Cert.Lse

variable (m : (ℓ : Loc nD τ sig) → Buf (Elt Ideal) ℓ) (ρ : Dev nD → PrngReg)
variable (c : Dev nD) (xR : Fin 512 → Fin 256 → ℝ) (fR : Fin 65536 → Fin 256 → ℝ)

/-- The per-query log-sum-exp as contents of the region's output array. -/
abbrev lseArr : Buf (Elt Ideal) ((c : Thread nD τ).loc main_v3) :=
  Pay.arrC fun b => Cert.Spec.lse (Cert.Spec.score xR fR b)

/-- The one write-back, after the last point, writes the per-query log-sum-exp: the block is the whole array. -/
theorem flushed_eq (hX : (V m c main_v2 : Vec Ideal S512x256 .f32) = Pay.arrX xR)
    (hF : (V m c main_arg3 : Vec Ideal S65536x256 .f32) = fun i => ((fR (i 0) (i 1) : ℝ) : EReal))
    (t : Fin cfg0.N) (hf : (cfg0.win 2).flush t = true) :
    (dats m 0 c).flushed 2 t = ((cfg0.win 2).blk t).view.read (Elt Ideal) (lseArr c xR fR) := by
  have hN : cfg0.N = 32 := N_0
  have h31 : t.val = 31 := by have := (flush0_2 t).mp hf; have := t.isLt; omega
  obtain rfl : t = tLast := Fin.ext h31
  show (cfg0.win 2).cut (grid0.coords tLast) ((dats m 0 c).after 2 tLast) = _
  rw [after0_2, out_last m c xR fR hX hF]
  have hz' : (fun a => win0_2.index tLast a * main_v3.ty.shape.size a) = fun _ => 0 :=
    funext fun a => by fin_cases a <;> decide +kernel
  exact (Memref.read_access_unit_zero (Elt Ideal) main_v3 hz' (fun a => by rw [congrFun hz' a]; simp) (lseArr c xR fR)).symm

/-- So the output array ends holding the per-query log-sum-exp. -/
theorem final_o (hX : (V m c main_v2 : Vec Ideal S512x256 .f32) = Pay.arrX xR)
    (hF : (V m c main_arg3 : Vec Ideal S65536x256 .f32) = fun i => ((fR (i 0) (i 1) : ℝ) : EReal)) :
    (dats m 0 c).arrAt 2 cfg0.N = lseArr c xR fR :=
  (dats m 0 c).arrAt_eq_of_cover 2 (lseArr c xR fR) (flushed_eq m c xR fR hX hF) fun i =>
    ⟨tLast, (flush0_2 tLast).mpr rfl, by
      show i ∈ ((View.whole main_v3).slice (win0_2.rect tLast)).set
      rw [View.set_slice_whole, Rect.mem_set_unit]
      intro a
      have h0 : (i 0 : Nat) < 512 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 512 from by decide +kernel]
        omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]
        omega⟩

/-- THE RUN of the idealized kernel program on real data: the result buffer ends at the specification's loss of the
    normalized queries, the bank and the labels; the arguments end unchanged. -/
theorem run (xin : Dev nD → Fin 512 → Fin 256 → ℝ) (fRs : Dev nD → Fin 65536 → Fin 256 → ℝ)
    (h0 : ∀ c : Dev nD, (m ((c : Thread nD τ).loc main_arg0) : FVec Ideal S512x256 .f32) = fun i => ((xin c (i 0) (i 1) : ℝ) : EReal))
    (h3 : ∀ c : Dev nD, (m ((c : Thread nD τ).loc main_arg3) : FVec Ideal S65536x256 .f32) = fun i => ((fRs c (i 0) (i 1) : ℝ) : EReal))
    (hpos : ∀ (c : Dev nD) (b : Fin 512), 0 < ∑ k : Fin 256, xin c b k * xin c b k)
    (h2 : ∀ (c : Dev nD) (b : Fin 512), 0 ≤ (m ((c : Thread nD τ).loc main_arg2) (ix1 b)).toInt
      ∧ (m ((c : Thread nD τ).loc main_arg2) (ix1 b)).toInt < 65536) :
    θ_run defs (onTc (τ := τ) (main (F := Ideal))) ⟨m, fun _ => 0, ρ⟩ fun r => ∀ c : Dev nD,
      r.2.mem ((c.tc : Thread nD τ).loc main_v18)
          = (fun _ => ((Cert.Spec.loss (Cert.Normalize.unit (xin c)) (fRs c)
              (fun b => (m ((c : Thread nD τ).loc main_arg2) (ix1 b)).toNat) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_main m ρ)
  have hX : (V m c main_v2 : Vec Ideal S512x256 .f32) = Pay.arrX (Cert.Normalize.unit (xin c)) := by
    rw [KHost.V_main_v2 m c, h0 c]
    exact Cert.Normalize.normalized_coe (xin c) (hpos c) _ _ _ _
  have hF : (V m c main_arg3 : Vec Ideal S65536x256 .f32) = fun i => ((fRs c (i 0) (i 1) : ℝ) : EReal) :=
    (V_main_arg3 m c).trans (h3 c)
  refine ⟨?_, ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).1 1).trans (((dats m 0 c).arrAt_in 1 rfl _).trans ((A_eq m c 1).trans (V_main_arg3 m c)))⟩
  rw [(h c).2 main_v18 (Pipeline.mem_restRefs_of main_v18 (by decide) (by decide)), KHost.tail_eq m c, hX,
    final_o m c (Cert.Normalize.unit (xin c)) (fRs c) hX hF, h3 c]
  funext i
  rw [eq_ix0 i]
  exact Tail.tail_coe (Cert.Normalize.unit (xin c)) (fRs c) (fun b => Cert.Spec.lse (Cert.Spec.score (Cert.Normalize.unit (xin c)) (fRs c) b))
    (m ((c : Thread nD τ).loc main_arg2)) (h2 c)

end Cert.KernelIdeal.KVal

end
-- ==== Proof.RefStages.lean ====
import proofs.«415887_j14611478741436_1_alg».proof.Proof.Gen.ReferenceIdeal

/-!
The reference program's result as a composition of four stages of its arguments: the scaled similarity scores of the
normalized queries against the bank, their row-wise log-softmax, the entry each row's label selects, and the negated mean.
-/

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Each query row divided by its Euclidean norm. -/
def normalized (x0 : FVec F S512x256 .f32) : FVec F S512x256 .f32 :=
  Host.divf x0 (broadcastInDim S512x256 ![0, 1] bcast_S512x1_S512x256_0_1
    (Host.sqrt (broadcastInDim S512x1 ![0] bcast_S512_S512x1_0
      (Host.reduceAdd (mulf x0 x0) (constant S_ .f32 0x00000000#32) reducesTo_S512x256_S512_d1 h_S_))))

/-- The similarity scores of (normalized) queries against every row of the bank, divided by the temperature. -/
def scoresN (xn : FVec F S512x256 .f32) (x3 : FVec F S65536x256 .f32) : FVec F S512x65536 .f32 :=
  Host.divf (Host.dotGeneral dot_S512x256_S256x65536_S512x65536_1_0_0_1_n_n none xn
      (transpose S256x65536 [1, 0] x3 transposes_S65536x256_S256x65536_1_0))
    (broadcastInDim S512x65536 ![] bcast_S_S512x65536 (constant S_ .f32 0x3D4CCCCD#32))

/-- The scores of the raw queries: normalized first. -/
def scores (x0 : FVec F S512x256 .f32) (x3 : FVec F S65536x256 .f32) : FVec F S512x65536 .f32 :=
  scoresN (normalized x0) x3

/-- Each row's maximum, from `-∞`. -/
def rowMaxOf (z : FVec F S512x65536 .f32) : FVec F S512 .f32 :=
  maximumf (broadcastInDim S512 ![] bcast_S_S512 (constant S_ .f32 0xFF800000#32))
    (Host.reduce FloatOps.maximumf z (constant S_ .f32 0xFF800000#32) reducesTo_S512x65536_S512_d1 h_S_)

/-- The scores shifted by their row's maximum. -/
def shifted (z : FVec F S512x65536 .f32) : FVec F S512x65536 .f32 :=
  subf z (broadcastInDim S512x65536 ![0, 1] bcast_S512x1_S512x65536_0_1 (broadcastInDim S512x1 ![0] bcast_S512_S512x1_0 (rowMaxOf z)))

/-- The row-wise log-softmax: the shifted scores minus the logarithm of the row sum of their exponentials. -/
def logSoftmax (z : FVec F S512x65536 .f32) : FVec F S512x65536 .f32 :=
  subf (shifted z) (broadcastInDim S512x65536 ![0, 1] bcast_S512x1_S512x65536_0_1
    (Host.log (broadcastInDim S512x1 ![0] bcast_S512_S512x1_0
      (Host.reduceAdd (Host.exp (shifted z)) (constant S_ .f32 0x00000000#32) reducesTo_S512x65536_S512_d1 h_S_))))

/-- The labels with a negative one wrapped around, as a column of start indices. -/
def wrapped (x2 : IVec S512 32) : IVec S512x1x1 32 :=
  shapeCast S512x1x1
    (select (cmpi .slt (broadcastInDim S512x1 ![0] bcast_S512_S512x1_0 x2) (broadcastInDim S512x1 ![] bcast_S_S512x1 (constantI S_ 32 0#32)))
      (addi (broadcastInDim S512x1 ![0] bcast_S512_S512x1_0 x2) (broadcastInDim S512x1 ![] bcast_S_S512x1 (constantI S_ 32 65536#32)))
      (broadcastInDim S512x1 ![0] bcast_S512_S512x1_0 x2))
    shapeCasts_S512x1_S512x1x1

/-- Whether each wrapped label lies in `[0, 65535]`. -/
def inRange (x2 : IVec S512 32) : IVec S512x1 1 :=
  Host.reduce IntOp.andi
    (andi (cmpi .sge (wrapped x2) (broadcastInDim S512x1x1 ![] bcast_S_S512x1x1 (constantI S_ 32 0#32)))
      (cmpi .sle (wrapped x2) (broadcastInDim S512x1x1 ![0, 1, 2] bcast_S1x1x1_S512x1x1_0_1_2
        (broadcastInDim S1x1x1 ![2] bcast_S1_S1x1x1_2 (constantI S1 32 65535#32)))))
    (constantI S_ 1 1#1) reducesTo_S512x1x1_S512x1_d2 h_S_

/-- The entry of each row at its label; the fill value where the label is out of range. -/
def taken (lp : FVec F S512x65536 .f32) (x2 : IVec S512 32) : FVec F S512x1 .f32 :=
  select (inRange x2) (Host.gather gather_S512x65536_S512x1x1_S512x1_n_1_0_0_1_2_11 lp (wrapped x2))
    (broadcastInDim S512x1 ![] bcast_S_S512x1 (constant S_ .f32 0x7FC00000#32))

/-- The negated mean over the 512 rows. -/
def negMean (tk : FVec F S512x1 .f32) : FVec F S_ .f32 :=
  Host.negf (Host.divf (Host.reduceAdd tk (constant S_ .f32 0x00000000#32) reducesTo_S512x1_S_d0_1 h_S_) (constant S_ .f32 0x44000000#32))

/-- The reference's result of its arguments. -/
def result (x0 : FVec F S512x256 .f32) (x2 : IVec S512 32) (x3 : FVec F S65536x256 .f32) : FVec F S_ .f32 :=
  negMean (taken (logSoftmax (scores x0 x3)) x2)

end Cert.ReferenceIdeal.Stages

end
-- ==== Proof.RefEval.lean ====
import proofs.«415887_j14611478741436_1_alg».proof.Proof.RefRun
import proofs.«415887_j14611478741436_1_alg».proof.Proof.RefStages
import Idealize.ShloMosaic.Lib.StableHlo.Run
import Idealize.ShloMosaic.Lib.Pipeline.Frame

/-!
The reference program's run ends with its result buffer at the four-stage composition of its arguments.
-/

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Contents moved to a typed reference's buffer and back are unchanged. -/
private theorem ofBuf_toBuf {T : BufTy} (x : TRef sig T) (v : T.Contents (Elt F)) : x.ofBuf (x.toBuf v) = v := by
  obtain ⟨r, h, _, _⟩ := x
  subst h
  rfl

/-! At a literal reference the transport between the value's type and the buffer's is the identity. -/

private theorem of_v6 (h1 h2 h3) (v : FVec F S512x65536 .f32) :
    TRef.ofBuf (Val := Elt F) (TRef.of (T := ⟨S512x65536, .f32⟩) main_v6 h1 h2 h3) v = v := rfl
private theorem to_call1_v5 (h1 h2 h3) (v : FVec F S512x65536 .f32) :
    TRef.toBuf (Val := Elt F) (TRef.of (T := ⟨S512x65536, .f32⟩) main_call1_v5 h1 h2 h3) v = v := rfl
private theorem of_call1_v5 (h1 h2 h3) (v : FVec F S512x65536 .f32) :
    TRef.ofBuf (Val := Elt F) (TRef.of (T := ⟨S512x65536, .f32⟩) main_call1_v5 h1 h2 h3) v = v := rfl
private theorem to_v7 (h1 h2 h3) (v : FVec F S512x65536 .f32) :
    TRef.toBuf (Val := Elt F) (TRef.of (T := ⟨S512x65536, .f32⟩) main_v7 h1 h2 h3) v = v := rfl
private theorem of_v7 (h1 h2 h3) (v : FVec F S512x65536 .f32) :
    TRef.ofBuf (Val := Elt F) (TRef.of (T := ⟨S512x65536, .f32⟩) main_v7 h1 h2 h3) v = v := rfl
private theorem of_v8 (h1 h2 h3) (v : IVec S512x1 32) :
    TRef.ofBuf (Val := Elt F) (TRef.of (T := ⟨S512x1, .i32⟩) main_v8 h1 h2 h3) v = v := rfl
private theorem of_call2_v5 (h1 h2 h3) (v : IVec S512x1x1 32) :
    TRef.ofBuf (Val := Elt F) (TRef.of (T := ⟨S512x1x1, .i32⟩) main_call2_v5 h1 h2 h3) v = v := rfl
private theorem to_v9 (h1 h2 h3) (v : FVec F S512x1 .f32) :
    TRef.toBuf (Val := Elt F) (TRef.of (T := ⟨S512x1, .f32⟩) main_v9 h1 h2 h3) v = v := rfl

/-- The log-softmax of scores already shifted by their row's maximum. -/
private def lsmOfShifted (s : FVec F S512x65536 .f32) : FVec F S512x65536 .f32 :=
  subf s (broadcastInDim S512x65536 ![0, 1] bcast_S512x1_S512x65536_0_1
    (Host.log (broadcastInDim S512x1 ![0] bcast_S512_S512x1_0
      (Host.reduceAdd (Host.exp s) (constant S_ .f32 0x00000000#32) reducesTo_S512x65536_S512_d1 h_S_))))

private theorem logSoftmax_eq (z : FVec F S512x65536 .f32) : logSoftmax z = lsmOfShifted (shifted z) := by
  unfold logSoftmax lsmOfShifted
  with_reducible rfl

/-- Whether each start index lies in `[0, 65535]`. -/
private def inRangeOf (w : IVec S512x1x1 32) : IVec S512x1 1 :=
  Host.reduce IntOp.andi
    (andi (cmpi .sge w (broadcastInDim S512x1x1 ![] bcast_S_S512x1x1 (constantI S_ 32 0#32)))
      (cmpi .sle w (broadcastInDim S512x1x1 ![0, 1, 2] bcast_S1x1x1_S512x1x1_0_1_2
        (broadcastInDim S1x1x1 ![2] bcast_S1_S1x1x1_2 (constantI S1 32 65535#32)))))
    (constantI S_ 1 1#1) reducesTo_S512x1x1_S512x1_d2 h_S_

/-- The entry of each row at its start index; the fill value where the index is out of range. -/
private def takenOf (lp : FVec F S512x65536 .f32) (w : IVec S512x1x1 32) : FVec F S512x1 .f32 :=
  select (inRangeOf w) (Host.gather gather_S512x65536_S512x1x1_S512x1_n_1_0_0_1_2_11 lp w)
    (broadcastInDim S512x1 ![] bcast_S_S512x1 (constant S_ .f32 0x7FC00000#32))

private theorem taken_eq (lp : FVec F S512x65536 .f32) (x2 : IVec S512 32) : taken lp x2 = takenOf lp (wrapped x2) := by
  unfold taken takenOf inRange inRangeOf
  with_reducible rfl

/-- The operations up to the scores. -/
private def c1 : List (HloOp τ sig (Elt F)) :=
  [ TRef.binary (TRef.of (T := ⟨S512x256, .f32⟩) main_arg0) (TRef.of (T := ⟨S512x256, .f32⟩) main_arg0) (TRef.of (T := ⟨S512x256, .f32⟩) main_call0_v0) mulf,
    TRef.nullary (TRef.of (T := ⟨S_, .f32⟩) main_call0_cst) (constant S_ .f32 0x00000000#32),
    TRef.binary (TRef.of (T := ⟨S512x256, .f32⟩) main_call0_v0) (TRef.of (T := ⟨S_, .f32⟩) main_call0_cst) (TRef.of (T := ⟨S512, .f32⟩) main_call0_v1) (fun x v => Host.reduceAdd x v reducesTo_S512x256_S512_d1 h_S_),
    TRef.unary (TRef.of (T := ⟨S512, .f32⟩) main_call0_v1) (TRef.of (T := ⟨S512x1, .f32⟩) main_call0_v2) (broadcastInDim S512x1 ![0] bcast_S512_S512x1_0),
    TRef.unary (TRef.of (T := ⟨S512x1, .f32⟩) main_call0_v2) (TRef.of (T := ⟨S512x1, .f32⟩) main_v0) Host.sqrt,
    unary main_v0 main_v1 (broadcastInDim S512x256 ![0, 1] bcast_S512x1_S512x256_0_1 : (⟨S512x1, .f32⟩ : BufTy).Contents (Elt F) → (⟨S512x256, .f32⟩ : BufTy).Contents (Elt F)),
    binary main_arg0 main_v1 main_v2 (Host.divf : (⟨S512x256, .f32⟩ : BufTy).Contents (Elt F) → (⟨S512x256, .f32⟩ : BufTy).Contents (Elt F) → (⟨S512x256, .f32⟩ : BufTy).Contents (Elt F)),
    unary main_arg3 main_v3 ((transpose S256x65536 [1, 0] · transposes_S65536x256_S256x65536_1_0) : (⟨S65536x256, .f32⟩ : BufTy).Contents (Elt F) → (⟨S256x65536, .f32⟩ : BufTy).Contents (Elt F)),
    binary main_v2 main_v3 main_v4 ((fun l r => Host.dotGeneral dot_S512x256_S256x65536_S512x65536_1_0_0_1_n_n none l r) : (⟨S512x256, .f32⟩ : BufTy).Contents (Elt F) → (⟨S256x65536, .f32⟩ : BufTy).Contents (Elt F) → (⟨S512x65536, .f32⟩ : BufTy).Contents (Elt F)),
    nullary main_cst (constant S_ .f32 0x3D4CCCCD#32),
    unary main_cst main_v5 (broadcastInDim S512x65536 ![] bcast_S_S512x65536 : (⟨S_, .f32⟩ : BufTy).Contents (Elt F) → (⟨S512x65536, .f32⟩ : BufTy).Contents (Elt F)),
    binary main_v4 main_v5 main_v6 (Host.divf : (⟨S512x65536, .f32⟩ : BufTy).Contents (Elt F) → (⟨S512x65536, .f32⟩ : BufTy).Contents (Elt F) → (⟨S512x65536, .f32⟩ : BufTy).Contents (Elt F)) ]

/-- The operations shifting the scores by their row's maximum. -/
private def c2a : List (HloOp τ sig (Elt F)) :=
  [ TRef.nullary (TRef.of (T := ⟨S_, .f32⟩) main_call1_cst) (constant S_ .f32 0xFF800000#32),
    TRef.binary (TRef.of (T := ⟨S512x65536, .f32⟩) main_v6) (TRef.of (T := ⟨S_, .f32⟩) main_call1_cst) (TRef.of (T := ⟨S512, .f32⟩) main_call1_v0) (fun x v => Host.reduce FloatOps.maximumf x v reducesTo_S512x65536_S512_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S512, .f32⟩) main_call1_v1) (broadcastInDim S512 ![] bcast_S_S512),
    TRef.binary (TRef.of (T := ⟨S512, .f32⟩) main_call1_v1) (TRef.of (T := ⟨S512, .f32⟩) main_call1_v0) (TRef.of (T := ⟨S512, .f32⟩) main_call1_v2) maximumf,
    TRef.unary (TRef.of (T := ⟨S512, .f32⟩) main_call1_v2) (TRef.of (T := ⟨S512x1, .f32⟩) main_call1_v3) (broadcastInDim S512x1 ![0] bcast_S512_S512x1_0),
    TRef.unary (TRef.of (T := ⟨S512x1, .f32⟩) main_call1_v3) (TRef.of (T := ⟨S512x65536, .f32⟩) main_call1_v4) (broadcastInDim S512x65536 ![0, 1] bcast_S512x1_S512x65536_0_1),
    TRef.binary (TRef.of (T := ⟨S512x65536, .f32⟩) main_v6) (TRef.of (T := ⟨S512x65536, .f32⟩) main_call1_v4) (TRef.of (T := ⟨S512x65536, .f32⟩) main_call1_v5) subf ]

/-- The rest of the log-softmax. -/
private def c2b : List (HloOp τ sig (Elt F)) :=
  [ TRef.unary (TRef.of (T := ⟨S512x65536, .f32⟩) main_call1_v5) (TRef.of (T := ⟨S512x65536, .f32⟩) main_call1_v6) Host.exp,
    TRef.nullary (TRef.of (T := ⟨S_, .f32⟩) main_call1_cst_1) (constant S_ .f32 0x00000000#32),
    TRef.binary (TRef.of (T := ⟨S512x65536, .f32⟩) main_call1_v6) (TRef.of (T := ⟨S_, .f32⟩) main_call1_cst_1) (TRef.of (T := ⟨S512, .f32⟩) main_call1_v7) (fun x v => Host.reduceAdd x v reducesTo_S512x65536_S512_d1 h_S_),
    TRef.unary (TRef.of (T := ⟨S512, .f32⟩) main_call1_v7) (TRef.of (T := ⟨S512x1, .f32⟩) main_call1_v8) (broadcastInDim S512x1 ![0] bcast_S512_S512x1_0),
    TRef.unary (TRef.of (T := ⟨S512x1, .f32⟩) main_call1_v8) (TRef.of (T := ⟨S512x1, .f32⟩) main_call1_v9) Host.log,
    TRef.unary (TRef.of (T := ⟨S512x1, .f32⟩) main_call1_v9) (TRef.of (T := ⟨S512x65536, .f32⟩) main_call1_v10) (broadcastInDim S512x65536 ![0, 1] bcast_S512x1_S512x65536_0_1),
    TRef.binary (TRef.of (T := ⟨S512x65536, .f32⟩) main_call1_v5) (TRef.of (T := ⟨S512x65536, .f32⟩) main_call1_v10) (TRef.of (T := ⟨S512x65536, .f32⟩) main_v7) subf ]

/-- The operations wrapping the labels into start indices. -/
private def c3a : List (HloOp τ sig (Elt F)) :=
  [ unary main_arg2 main_v8 (broadcastInDim S512x1 ![0] bcast_S512_S512x1_0 : (⟨S512, .i32⟩ : BufTy).Contents (Elt F) → (⟨S512x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S512x1, .i32⟩) main_call2_v0) (broadcastInDim S512x1 ![] bcast_S_S512x1),
    TRef.binary (TRef.of (T := ⟨S512x1, .i32⟩) main_v8) (TRef.of (T := ⟨S512x1, .i32⟩) main_call2_v0) (TRef.of (T := ⟨S512x1, .i1⟩) main_call2_v1) (cmpi .slt),
    TRef.nullary (TRef.of (T := ⟨S_, .i32⟩) main_call2_c_0) (constantI S_ 32 65536#32),
    TRef.unary (TRef.of (T := ⟨S_, .i32⟩) main_call2_c_0) (TRef.of (T := ⟨S512x1, .i32⟩) main_call2_v2) (broadcastInDim S512x1 ![] bcast_S_S512x1),
    TRef.binary (TRef.of (T := ⟨S512x1, .i32⟩) main_v8) (TRef.of (T := ⟨S512x1, .i32⟩) main_call2_v2) (TRef.of (T := ⟨S512x1, .i32⟩) main_call2_v3) addi,
    TRef.ternary (TRef.of (T := ⟨S512x1, .i1⟩) main_call2_v1) (TRef.of (T := ⟨S512x1, .i32⟩) main_call2_v3) (TRef.of (T := ⟨S512x1, .i32⟩) main_v8) (TRef.of (T := ⟨S512x1, .i32⟩) main_call2_v4) select,
    TRef.reshape (TRef.of (T := ⟨S512x1, .i32⟩) main_call2_v4) (TRef.of (T := ⟨S512x1x1, .i32⟩) main_call2_v5) rfl shapeCasts_S512x1_S512x1x1 ]

/-- The operations selecting each row's entry at its start index. -/
private def c3b : List (HloOp τ sig (Elt F)) :=
  [ TRef.nullary (TRef.of (T := ⟨S1, .i32⟩) main_call2_c_1) (constantI S1 32 65535#32),
    TRef.nullary (TRef.of (T := ⟨S_, .i32⟩) main_call2_c_2) (constantI S_ 32 0#32),
    TRef.unary (TRef.of (T := ⟨S_, .i32⟩) main_call2_c_2) (TRef.of (T := ⟨S512x1x1, .i32⟩) main_call2_v6) (broadcastInDim S512x1x1 ![] bcast_S_S512x1x1),
    TRef.binary (TRef.of (T := ⟨S512x1x1, .i32⟩) main_call2_v5) (TRef.of (T := ⟨S512x1x1, .i32⟩) main_call2_v6) (TRef.of (T := ⟨S512x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S512x1x1, .i32⟩) main_call2_v9) (broadcastInDim S512x1x1 ![0, 1, 2] bcast_S1x1x1_S512x1x1_0_1_2),
    TRef.binary (TRef.of (T := ⟨S512x1x1, .i32⟩) main_call2_v5) (TRef.of (T := ⟨S512x1x1, .i32⟩) main_call2_v9) (TRef.of (T := ⟨S512x1x1, .i1⟩) main_call2_v10) (cmpi .sle),
    TRef.binary (TRef.of (T := ⟨S512x1x1, .i1⟩) main_call2_v7) (TRef.of (T := ⟨S512x1x1, .i1⟩) main_call2_v10) (TRef.of (T := ⟨S512x1x1, .i1⟩) main_call2_v11) andi,
    TRef.nullary (TRef.of (T := ⟨S_, .i1⟩) main_call2_c_3) (constantI S_ 1 1#1),
    TRef.binary (TRef.of (T := ⟨S512x1x1, .i1⟩) main_call2_v11) (TRef.of (T := ⟨S_, .i1⟩) main_call2_c_3) (TRef.of (T := ⟨S512x1, .i1⟩) main_call2_v12) (fun x v => Host.reduce IntOp.andi x v reducesTo_S512x1x1_S512x1_d2 h_S_),
    TRef.binary (TRef.of (T := ⟨S512x65536, .f32⟩) main_v7) (TRef.of (T := ⟨S512x1x1, .i32⟩) main_call2_v5) (TRef.of (T := ⟨S512x1, .f32⟩) main_call2_v13) (fun x i => Host.gather gather_S512x65536_S512x1x1_S512x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S512x1, .f32⟩) main_call2_v14) (broadcastInDim S512x1 ![] bcast_S_S512x1),
    TRef.ternary (TRef.of (T := ⟨S512x1, .i1⟩) main_call2_v12) (TRef.of (T := ⟨S512x1, .f32⟩) main_call2_v13) (TRef.of (T := ⟨S512x1, .f32⟩) main_call2_v14) (TRef.of (T := ⟨S512x1, .f32⟩) main_v9) select ]

/-- The operations of the negated mean. -/
private def c4 : List (HloOp τ sig (Elt F)) :=
  [ nullary main_cst_0 (constant S_ .f32 0x00000000#32),
    binary main_v9 main_cst_0 main_v10 ((fun x v => Host.reduceAdd x v reducesTo_S512x1_S_d0_1 h_S_) : (⟨S512x1, .f32⟩ : BufTy).Contents (Elt F) → (⟨S_, .f32⟩ : BufTy).Contents (Elt F) → (⟨S_, .f32⟩ : BufTy).Contents (Elt F)),
    nullary main_cst_1 (constant S_ .f32 0x44000000#32),
    binary main_v10 main_cst_1 main_v11 (Host.divf : (⟨S_, .f32⟩ : BufTy).Contents (Elt F) → (⟨S_, .f32⟩ : BufTy).Contents (Elt F) → (⟨S_, .f32⟩ : BufTy).Contents (Elt F)),
    unary main_v11 main_v12 (Host.negf : (⟨S_, .f32⟩ : BufTy).Contents (Elt F) → (⟨S_, .f32⟩ : BufTy).Contents (Elt F)) ]

private theorem ops_eq : (PValue.ops (F := F)) = c1 ++ (c2a ++ (c2b ++ (c3a ++ (c3b ++ c4)))) := rfl

private theorem c1_v6 (V : Valuation τ sig (Elt F)) :
    after c1 V (Proc.devRef .tc main_v6) = scores (V (Proc.devRef .tc main_arg0)) (V (Proc.devRef .tc main_arg3)) := by
  unfold c1
  after_results_simp
  rfl

private theorem c1_arg2 (V : Valuation τ sig (Elt F)) :
    after c1 V (Proc.devRef .tc main_arg2) = V (Proc.devRef .tc main_arg2) := by
  unfold c1
  after_results_simp

private theorem c2a_v5 (V : Valuation τ sig (Elt F)) :
    after c2a V (Proc.devRef .tc main_call1_v5) = shifted (V (Proc.devRef .tc main_v6)) := by
  unfold c2a
  after_results_simp
  simp only [ofBuf_toBuf]
  rw [to_call1_v5]
  simp only [of_v6]
  unfold shifted rowMaxOf
  with_reducible rfl

private theorem c2a_arg2 (V : Valuation τ sig (Elt F)) :
    after c2a V (Proc.devRef .tc main_arg2) = V (Proc.devRef .tc main_arg2) := by
  unfold c2a
  after_results_simp

private theorem c2b_v7 (V : Valuation τ sig (Elt F)) :
    after c2b V (Proc.devRef .tc main_v7) = lsmOfShifted (V (Proc.devRef .tc main_call1_v5)) := by
  unfold c2b
  after_results_simp
  simp only [ofBuf_toBuf]
  rw [to_v7]
  simp only [of_call1_v5]
  unfold lsmOfShifted
  with_reducible rfl

private theorem c2b_arg2 (V : Valuation τ sig (Elt F)) :
    after c2b V (Proc.devRef .tc main_arg2) = V (Proc.devRef .tc main_arg2) := by
  unfold c2b
  after_results_simp

private theorem c3a_v5 (V : Valuation τ sig (Elt F)) :
    after c3a V (Proc.devRef .tc main_call2_v5) = wrapped (V (Proc.devRef .tc main_arg2)) := by
  unfold c3a
  after_results_simp
  simp only [ofBuf_toBuf]
  simp only [of_v8]
  rfl

private theorem c3a_v7 (V : Valuation τ sig (Elt F)) :
    after c3a V (Proc.devRef .tc main_v7) = V (Proc.devRef .tc main_v7) := by
  unfold c3a
  after_results_simp

private theorem c3b_v9 (V : Valuation τ sig (Elt F)) :
    after c3b V (Proc.devRef .tc main_v9) = takenOf (V (Proc.devRef .tc main_v7)) (V (Proc.devRef .tc main_call2_v5)) := by
  unfold c3b
  after_results_simp
  simp only [ofBuf_toBuf]
  rw [to_v9]
  simp only [of_v7, of_call2_v5]
  unfold takenOf inRangeOf
  with_reducible rfl

private theorem c4_v12 (V : Valuation τ sig (Elt F)) :
    after c4 V (Proc.devRef .tc main_v12) = negMean (V (Proc.devRef .tc main_v9)) := by
  unfold c4
  after_results_simp
  unfold negMean
  with_reducible rfl

/-- The whole line's result buffer, stage by stage. -/
private theorem ops_v12 (V : Valuation τ sig (Elt F)) :
    after (PValue.ops (F := F)) V (Proc.devRef .tc main_v12)
      = result (V (Proc.devRef .tc main_arg0)) (V (Proc.devRef .tc main_arg2)) (V (Proc.devRef .tc main_arg3)) := by
  rw [ops_eq]
  simp only [after_append]
  rw [c4_v12, c3b_v9, c3a_v7, c3a_v5, c2b_v7, c2b_arg2, c2a_v5, c2a_arg2, c1_v6, c1_arg2]
  unfold result
  rw [logSoftmax_eq, taken_eq]

/-- Every weakly fair execution of the reference terminates with its result buffer at `result` of the arguments'
    launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12)
          = result (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (ops_v12 (launchContents m c)), (h c).2⟩)
    (Cert.ReferenceIdeal.PValue.run m ρ)

end Cert.ReferenceIdeal.Stages

end
-- ==== Proof.RefGather.lean ====
import proofs.«415887_j14611478741436_1_alg».proof.Proof.Gen.ReferenceIdeal
import Idealize.ShloMosaic.Lib.ValueIdx
import Idealize.ShloMosaic.Lib.Pipeline.Value

/-!
The reference's gather along axis 1 with axis 0 a batching axis, read at an index: row `b` of the result is row `b` of
the operand at the column its start index names (read signed, clamped into `[0, 65535]`).
-/

noncomputable section

namespace Cert.ReferenceIdeal.RefGather

open Idealize.ShloMosaic Idealize.ShloMosaic.TcCoe Idealize.ShloMosaic.ValueIdx
open Cert.ReferenceIdeal Cert.ReferenceIdeal.Gen

/-- On the batching axis the operand index is the result's row. -/
private theorem gather_axis0 {w : Nat} (idx : IVec S512x1x1 w) (b : Fin 512) :
    (gather_S512x65536_S512x1x1_S512x1_n_1_0_0_1_2_11.operandIdx (ix2 b (0 : Fin 1)) idx 0).val = b.val := by
  show gather_S512x65536_S512x1x1_S512x1_n_1_0_0_1_2_11.start (ix2 b (0 : Fin 1)) idx 0 + gather_S512x65536_S512x1x1_S512x1_n_1_0_0_1_2_11.batchCoord (ix2 b (0 : Fin 1)) 0
    + gather_S512x65536_S512x1x1_S512x1_n_1_0_0_1_2_11.offCoord (ix2 b (0 : Fin 1)) 0 = _
  rw [GatherDims.offCoord_eq_zero gather_S512x65536_S512x1x1_S512x1_n_1_0_0_1_2_11 (ix2 b (0 : Fin 1)) 0 (by decide)]
  unfold GatherDims.start
  rw [dif_neg (show ¬(0 : Fin S512x65536.rank) ∈ gather_S512x65536_S512x1x1_S512x1_n_1_0_0_1_2_11.startIndexMap by decide)]
  unfold GatherDims.batchCoord
  rw [dif_pos (show (0 : Fin S512x65536.rank) ∈ gather_S512x65536_S512x1x1_S512x1_n_1_0_0_1_2_11.operandBatchingDims by decide)]
  simp only [Nat.zero_add, Nat.add_zero]
  rfl

/-- On the gathered axis the operand index is the start index, read signed and clamped into the operand. -/
private theorem gather_axis1 {w : Nat} (idx : IVec S512x1x1 w) (b : Fin 512) :
    (gather_S512x65536_S512x1x1_S512x1_n_1_0_0_1_2_11.operandIdx (ix2 b (0 : Fin 1)) idx 1).val = min (idx (ix3 b (0 : Fin 1) (0 : Fin 1))).toInt.toNat 65535 := by
  show gather_S512x65536_S512x1x1_S512x1_n_1_0_0_1_2_11.start (ix2 b (0 : Fin 1)) idx 1 + gather_S512x65536_S512x1x1_S512x1_n_1_0_0_1_2_11.batchCoord (ix2 b (0 : Fin 1)) 1
    + gather_S512x65536_S512x1x1_S512x1_n_1_0_0_1_2_11.offCoord (ix2 b (0 : Fin 1)) 1 = _
  rw [GatherDims.batchCoord_eq_zero gather_S512x65536_S512x1x1_S512x1_n_1_0_0_1_2_11 (ix2 b (0 : Fin 1)) 1 (by decide),
    GatherDims.offCoord_eq_zero gather_S512x65536_S512x1x1_S512x1_n_1_0_0_1_2_11 (ix2 b (0 : Fin 1)) 1 (by decide)]
  simp only [Nat.add_zero]
  unfold GatherDims.start
  rw [dif_pos (show (1 : Fin S512x65536.rank) ∈ gather_S512x65536_S512x1x1_S512x1_n_1_0_0_1_2_11.startIndexMap by decide)]
  have hsi : gather_S512x65536_S512x1x1_S512x1_n_1_0_0_1_2_11.siIdx (ix2 b (0 : Fin 1)) ⟨List.idxOf (1 : Fin S512x65536.rank) gather_S512x65536_S512x1x1_S512x1_n_1_0_0_1_2_11.startIndexMap,
      List.idxOf_lt_length_iff.2 (by decide)⟩ = ix3 b (0 : Fin 1) (0 : Fin 1) := by
    funext c; refine Fin.ext ?_
    match c with
    | ⟨0, _⟩ => rfl
    | ⟨1, _⟩ => rfl
    | ⟨2, _⟩ => rfl
  rw [hsi]
  rfl

theorem gather_apply {α : Type} (lp : S512x65536.Idx → α) (idx : IVec S512x1x1 32) (b : Fin 512) :
    Host.gather gather_S512x65536_S512x1x1_S512x1_n_1_0_0_1_2_11 lp idx (ix2 b (0 : Fin 1))
      = lp (ix2 b ⟨min (idx (ix3 b (0 : Fin 1) (0 : Fin 1))).toInt.toNat 65535, by omega⟩) := by
  unfold Host.gather
  refine congrArg lp (funext fun a => Fin.ext ?_)
  match a with
  | ⟨0, _⟩ => exact gather_axis0 idx b
  | ⟨1, _⟩ => exact gather_axis1 idx b

end Cert.ReferenceIdeal.RefGather

end
-- ==== Proof.RefTaken.lean ====
import proofs.«415887_j14611478741436_1_alg».proof.Proof.RefStages
import proofs.«415887_j14611478741436_1_alg».proof.Proof.RefGather
import proofs.«415887_j14611478741436_1_alg».proof.Proof.Softmax
import Idealize.ShloMosaic.PureOps.Ideal.Laws
import Idealize.ShloMosaic.Lib.ValueIdx
import Idealize.ShloMosaic.Lib.ValueLayout
import Idealize.ShloMosaic.Lib.Pipeline.Value

/-!
The reference's last two stages: with every label in range the entry taken from row `b` is the entry at the label's
column, and the negated mean of a real column is the negated real mean.
-/

noncomputable section

namespace Cert.ReferenceIdeal.RefTaken

open Idealize.ShloMosaic Idealize.ShloMosaic.TcCoe Idealize.ShloMosaic.ValueIdx
open Cert.ReferenceIdeal Cert.ReferenceIdeal.Gen Cert.ReferenceIdeal.Stages

/-- A label in `[0, 65536)` (signed) names a column. -/
theorem toNat_lt (w : BitVec 32) (h : 0 ≤ w.toInt ∧ w.toInt < 65536) : w.toNat < 65536 := by
  have h32 : w.toNat < 2 ^ 32 := w.isLt
  obtain ⟨h0, h1⟩ := h
  rw [BitVec.toInt_eq_toNat_cond] at h0 h1
  split_ifs at h0 h1 with hc <;> omega

private theorem toInt_toNat_of_nonneg {w : BitVec 32} (h0 : 0 ≤ w.toInt) : w.toInt.toNat = w.toNat := by
  have h32 : w.toNat < 2 ^ 32 := w.isLt
  rw [BitVec.toInt_eq_toNat_cond] at h0 ⊢
  split_ifs at h0 ⊢ with hc <;> omega

/-- A column made of a vector reads, at `(b, u)`, the vector at `b`. -/
private theorem column_apply (x2 : IVec S512 32) (b : Fin 512) (u : Fin 1) :
    broadcastInDim S512x1 (![0] : Fin 1 → Fin S512x1.rank) bcast_S512_S512x1_0 x2 (ix2 b u) = x2 (ix1 b) :=
  broadcastInDim_apply _ bcast_S512_S512x1_0 x2 (ix2 b u) (ix1 b) (fun a => match a with
    | ⟨0, _⟩ => by show b.val = if (512 : ℕ) = 1 then 0 else b.val; rw [if_neg (by decide)])

/-- A label that is not negative is its own start index. -/
private theorem wrapped_apply (x2 : IVec S512 32) (b : Fin 512) (u v : Fin 1) (h0 : 0 ≤ (x2 (ix1 b)).toInt) :
    wrapped x2 (ix3 b u v) = x2 (ix1 b) := by
  unfold wrapped
  refine (shapeCast_apply _ shapeCasts_S512x1_S512x1x1 (ix3 b u v) (ix2 b (0 : Fin 1)) (by
    have hu : u.val = 0 := by omega
    have hv : v.val = 0 := by omega
    rw [Shape.rowMajor_val_two, Shape.rowMajor_val_three]
    show b.val * 1 + 0 = (b.val * 1 + u.val) * 1 + v.val
    rw [hu, hv]
    omega)).trans ?_
  show Scalar.select (IntOp.cmpi .slt _ 0#32) (IntOp.addi _ 65536#32) _ = _
  rw [column_apply]
  have hs : (x2 (ix1 b)).slt 0#32 = false := by
    rw [Bool.eq_false_iff]
    intro h
    rw [BitVec.slt_iff_toInt_lt] at h
    have hz : (0#32 : BitVec 32).toInt = 0 := by decide
    omega
  unfold Scalar.select IntOp.cmpi
  rw [hs]
  rfl

/-- A left fold by `and` from 1 over words that are all 1 is 1. -/
private theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- With the labels in range every wrapped label passes the range check. -/
private theorem inRange_apply (x2 : IVec S512 32)
    (hx2 : ∀ b : Fin 512, 0 ≤ (x2 (ix1 b)).toInt ∧ (x2 (ix1 b)).toInt < 65536) (j : S512x1.Idx) :
    inRange x2 j = 1#1 := by
  unfold inRange
  rw [Host.reduce_eq_foldl]
  refine foldl_andi_ones _ (fun i => ?_) _
  obtain ⟨b, u, v, rfl⟩ : ∃ (b : Fin 512) (u v : Fin 1), i = ix3 b u v := ⟨i 0, i 1, i 2, eq_ix3 i⟩
  show IntOp.andi (IntOp.cmpi .sge (wrapped x2 (ix3 b u v)) 0#32) (IntOp.cmpi .sle (wrapped x2 (ix3 b u v)) 65535#32) = 1#1
  rw [wrapped_apply x2 b u v (hx2 b).1]
  have h1 : (0#32 : BitVec 32).sle (x2 (ix1 b)) = true := by
    rw [BitVec.sle_iff_toInt_le]
    have hz : (0#32 : BitVec 32).toInt = 0 := by decide
    have := (hx2 b).1
    omega
  have h2 : (x2 (ix1 b)).sle 65535#32 = true := by
    rw [BitVec.sle_iff_toInt_le]
    have hz : (65535#32 : BitVec 32).toInt = 65535 := by decide
    have := (hx2 b).2
    omega
  show IntOp.andi (BitVec.ofBool ((0#32 : BitVec 32).sle (x2 (ix1 b)))) (BitVec.ofBool ((x2 (ix1 b)).sle 65535#32)) = 1#1
  rw [h1, h2]
  decide

/-- With the labels in range, row `b` of the taken column is row `b` of the matrix at the label's column. -/
theorem taken_apply (lp : FVec Ideal S512x65536 .f32) (x2 : IVec S512 32)
    (hx2 : ∀ b : Fin 512, 0 ≤ (x2 (ix1 b)).toInt ∧ (x2 (ix1 b)).toInt < 65536) (b : Fin 512) :
    taken (F := Ideal) lp x2 (ix2 b (0 : Fin 1)) = lp (ix2 b ⟨(x2 (ix1 b)).toNat, toNat_lt _ (hx2 b)⟩) := by
  unfold taken
  show Scalar.select (inRange x2 (ix2 b (0 : Fin 1)))
    (Host.gather gather_S512x65536_S512x1x1_S512x1_n_1_0_0_1_2_11 lp (wrapped x2) (ix2 b (0 : Fin 1))) _ = _
  rw [inRange_apply x2 hx2, select_one, RefGather.gather_apply]
  refine congrArg (fun t : Fin 65536 => lp (ix2 b t)) (Fin.ext ?_)
  show min (wrapped x2 (ix3 b (0 : Fin 1) (0 : Fin 1))).toInt.toNat 65535 = (x2 (ix1 b)).toNat
  rw [wrapped_apply x2 b 0 0 (hx2 b).1, toInt_toNat_of_nonneg (hx2 b).1]
  have := toNat_lt _ (hx2 b)
  omega

private theorem ofBits_count : Ideal.ofBits .f32 0x44000000#32 = ((512 : ℝ) : EReal) := by
  simp [Ideal.ofBits, Ideal.ieee, -EReal.coe_mul]; norm_num

/-- The negated mean of a real column. -/
theorem negMean_coe (g : Fin 512 → ℝ) :
    negMean (F := Ideal) (fun i : S512x1.Idx => ((g (i 0) : ℝ) : EReal)) ix0 = ((-((∑ b : Fin 512, g b) / 512) : ℝ) : EReal) := by
  unfold negMean
  show -(Ideal.div (Host.reduceAdd (F := Ideal) (fun i : S512x1.Idx => ((g (i 0) : ℝ) : EReal))
      (constant S_ .f32 0x00000000#32) reducesTo_S512x1_S_d0_1 h_S_ ix0) (Ideal.ofBits .f32 0x44000000#32)) = _
  have hs : Host.reduceAdd (F := Ideal) (fun i : S512x1.Idx => ((g (i 0) : ℝ) : EReal))
      (constant S_ .f32 0x00000000#32) reducesTo_S512x1_S_d0_1 h_S_ ix0 = ((∑ b : Fin 512, g b : ℝ) : EReal) := by
    refine (Ideal.hostReduceAdd_total reducesTo_S512x1_S_d0_1 (fun a => a.elim0) _ _ ix0).trans ?_
    refine (congrArg (· + _) Ideal.ofBits_zero_f32).trans ?_
    rw [zero_add, sum_idx2, ← Cert.Lse.coe_sum]
    refine Finset.sum_congr rfl fun b _ => ?_
    rw [Fin.sum_univ_one]
  rw [hs, ofBits_count, Ideal.div_coe (by norm_num), ← EReal.coe_mul, ← EReal.coe_neg]
  refine congrArg (fun r : ℝ => (r : EReal)) ?_
  rw [mul_one_div]

end Cert.ReferenceIdeal.RefTaken

end
-- ==== Proof.RefVal.lean ====
import proofs.«415887_j14611478741436_1_alg».proof.Proof.RefStages
import proofs.«415887_j14611478741436_1_alg».proof.Proof.Spec
import proofs.«415887_j14611478741436_1_alg».proof.Proof.RefTaken
import Idealize.ShloMosaic.PureOps.Ideal.Laws
import Idealize.ShloMosaic.Lib.ValueIdx
import Idealize.ShloMosaic.Lib.ValueLayout
import Idealize.ShloMosaic.Lib.Pipeline.Value

/-!
The reference's last three stages on real data: with real normalized queries, a real bank and labels in range, the
negated mean of the log-softmax entries at the labels is the specification's loss.
-/

noncomputable section

namespace Cert.ReferenceIdeal.RefVal

open Idealize.ShloMosaic Idealize.ShloMosaic.TcCoe Idealize.ShloMosaic.ValueIdx
open Cert.ReferenceIdeal Cert.ReferenceIdeal.Stages

/-- Real families as arrays of extended reals. -/
abbrev arrX (xR : Fin 512 → Fin 256 → ℝ) : FVec Ideal S512x256 .f32 := fun i => ((xR (i 0) (i 1) : ℝ) : EReal)
abbrev arrBank (fR : Fin 65536 → Fin 256 → ℝ) : FVec Ideal S65536x256 .f32 := fun i => ((fR (i 0) (i 1) : ℝ) : EReal)

section Stages
open Cert.ReferenceIdeal.Gen

/-- The temperature word is the binary fraction 13421773 / 2^28. -/
theorem temp_val : Ideal.ofBits .f32 0x3D4CCCCD#32 = ((13421773 / 268435456 : ℝ) : EReal) := by
  simp [Ideal.ofBits, Ideal.ieee, -EReal.coe_mul]; norm_num

/-- The word the row maximum starts from is minus infinity. -/
theorem negInf_val : Ideal.ofBits .f32 0xFF800000#32 = (⊥ : EReal) := by
  simp [Ideal.ofBits, Ideal.ieee]

/-! ### The scores -/

theorem dot_lhs0 (i : S512x65536.Idx) (q : dot_S512x256_S256x65536_S512x65536_1_0_0_1_n_n.contr.Idx) :
    (dot_S512x256_S256x65536_S512x65536_1_0_0_1_n_n.lhsIdx i q 0).val = (i 0).val := by
  unfold DotDims.lhsIdx
  rw [dif_neg (show ¬(0 : Fin S512x256.rank) ∈ dot_S512x256_S256x65536_S512x65536_1_0_0_1_n_n.lhsBatch by decide), dif_pos (show (0 : Fin S512x256.rank) ∈ dot_S512x256_S256x65536_S512x65536_1_0_0_1_n_n.lhsNonContracting by decide)]
  rfl
theorem dot_lhs1 (i : S512x65536.Idx) (q : dot_S512x256_S256x65536_S512x65536_1_0_0_1_n_n.contr.Idx) :
    (dot_S512x256_S256x65536_S512x65536_1_0_0_1_n_n.lhsIdx i q 1).val = (q ⟨0, by decide⟩).val :=
  dot_S512x256_S256x65536_S512x65536_1_0_0_1_n_n.lhsIdx_val_of_single rfl i q
theorem dot_rhs0 (i : S512x65536.Idx) (q : dot_S512x256_S256x65536_S512x65536_1_0_0_1_n_n.contr.Idx) :
    (dot_S512x256_S256x65536_S512x65536_1_0_0_1_n_n.rhsIdx i q 0).val = (q ⟨0, by decide⟩).val :=
  dot_S512x256_S256x65536_S512x65536_1_0_0_1_n_n.rhsIdx_val_of_single rfl i q
theorem dot_rhs1 (i : S512x65536.Idx) (q : dot_S512x256_S256x65536_S512x65536_1_0_0_1_n_n.contr.Idx) :
    (dot_S512x256_S256x65536_S512x65536_1_0_0_1_n_n.rhsIdx i q 1).val = (i 1).val := by
  unfold DotDims.rhsIdx
  rw [dif_neg (show ¬(1 : Fin S256x65536.rank) ∈ dot_S512x256_S256x65536_S512x65536_1_0_0_1_n_n.rhsBatch by decide), dif_pos (show (1 : Fin S256x65536.rank) ∈ dot_S512x256_S256x65536_S512x65536_1_0_0_1_n_n.rhsNonContracting by decide)]
  rfl

/-- The product of a 512 × 256 array with a 256 × 65536 one, entry by entry: the sum over the shared axis. -/
theorem dot_apply (y0 : FVec Ideal S512x256 .f32) (y1 : FVec Ideal S256x65536 .f32) (b : Fin 512) (n : Fin 65536) :
    Host.dotGeneral (F := Ideal) dot_S512x256_S256x65536_S512x65536_1_0_0_1_n_n none y0 y1 (ix2 b n)
      = ∑ k : Fin 256, y0 (ix2 b k) * y1 (ix2 k n) := by
  simp only [Host.dotGeneral]
  rw [Ideal.dotGeneral_apply, ← Equiv.sum_comp (ValueIdx.contrEquiv1 dot_S512x256_S256x65536_S512x65536_1_0_0_1_n_n 256 rfl rfl).symm]
  refine Finset.sum_congr rfl fun k _ => ?_
  have hk := ValueIdx.contrEquiv1_symm_val dot_S512x256_S256x65536_S512x65536_1_0_0_1_n_n 256 rfl rfl k
  have el : dot_S512x256_S256x65536_S512x65536_1_0_0_1_n_n.lhsIdx (ix2 b n) ((ValueIdx.contrEquiv1 dot_S512x256_S256x65536_S512x65536_1_0_0_1_n_n 256 rfl rfl).symm k) = ix2 b k := funext fun a => Fin.ext (by
    match a with
    | ⟨0, _⟩ => exact dot_lhs0 _ _
    | ⟨1, _⟩ => exact (dot_lhs1 _ _).trans hk)
  have er : dot_S512x256_S256x65536_S512x65536_1_0_0_1_n_n.rhsIdx (ix2 b n) ((ValueIdx.contrEquiv1 dot_S512x256_S256x65536_S512x65536_1_0_0_1_n_n 256 rfl rfl).symm k) = ix2 k n := funext fun a => Fin.ext (by
    match a with
    | ⟨0, _⟩ => exact (dot_rhs0 _ _).trans hk
    | ⟨1, _⟩ => exact dot_rhs1 _ _)
  rw [el, er]

/-- The transposed bank at (k, n) is the bank at (n, k). -/
theorem bankT_apply (x3 : FVec Ideal S65536x256 .f32) (k : Fin 256) (n : Fin 65536) :
    transpose S256x65536 [1, 0] x3 transposes_S65536x256_S256x65536_1_0 (ix2 k n) = x3 (ix2 n k) :=
  transpose_apply [1, 0] x3 transposes_S65536x256_S256x65536_1_0 (ix2 k n) (ix2 n k) (fun b => match b with
    | ⟨0, _⟩ => rfl
    | ⟨1, _⟩ => rfl)

/-- The temperature, broadcast over the scores' shape, is the temperature at every entry. -/
theorem tempB_apply (i : S512x65536.Idx) :
    broadcastInDim S512x65536 ![] bcast_S_S512x65536 (constant (F := Ideal) S_ .f32 0x3D4CCCCD#32) i
      = ((13421773 / 268435456 : ℝ) : EReal) := by
  refine (broadcastInDim_apply _ bcast_S_S512x65536 (constant (F := Ideal) S_ .f32 0x3D4CCCCD#32) i ix0 (fun a => a.elim0)).trans ?_
  exact temp_val

/-- The scaled scores of real queries against a real bank are the specification's, at every entry. -/
theorem scoresN_apply (xR : Fin 512 → Fin 256 → ℝ) (fR : Fin 65536 → Fin 256 → ℝ) (b : Fin 512) (n : Fin 65536) :
    scoresN (F := Ideal) (arrX xR) (arrBank fR) (ix2 b n) = ((Cert.Spec.score xR fR b n.val : ℝ) : EReal) := by
  unfold scoresN
  show Ideal.div (Host.dotGeneral (F := Ideal) dot_S512x256_S256x65536_S512x65536_1_0_0_1_n_n none (arrX xR)
      (transpose S256x65536 [1, 0] (arrBank fR) transposes_S65536x256_S256x65536_1_0) (ix2 b n))
    (broadcastInDim S512x65536 ![] bcast_S_S512x65536 (constant (F := Ideal) S_ .f32 0x3D4CCCCD#32) (ix2 b n)) = _
  rw [tempB_apply, dot_apply, Ideal.div_coe (by norm_num)]
  simp only [bankT_apply]
  show (∑ k : Fin 256, ((xR b k : ℝ) : EReal) * ((fR n k : ℝ) : EReal)) * _ = _
  simp only [← EReal.coe_mul]
  rw [Cert.Lse.coe_sum, ← EReal.coe_mul]
  congr 1
  unfold Cert.Spec.score Cert.Spec.invTemp
  rw [dif_pos n.isLt]
  norm_num

/-! ### Rows: the maximum, the shift, the log-softmax -/

theorem reduces_rows : S512x65536.Reduces [1] S512 := by decide

/-- The index of row `b` with `k` inserted on the reduced axis is `(b, k)`. -/
theorem lift_rows (b : Fin 512) (k : Fin 65536) : reduces_rows.lift (ix1 b) k = ix2 b k :=
  funext fun a => Fin.ext (by match a with | ⟨0, _⟩ => rfl | ⟨1, _⟩ => rfl)

/-- A vector over the rows as a one-column matrix. -/
theorem col1_apply {α : Type} (v : S512.Idx → α) (b : Fin 512) (c : Fin 1) :
    broadcastInDim S512x1 ![0] bcast_S512_S512x1_0 v (ix2 b c) = v (ix1 b) :=
  broadcastInDim_apply _ bcast_S512_S512x1_0 v (ix2 b c) (ix1 b) (fun a => match a with
    | ⟨0, _⟩ => by show b.val = if (512 : Nat) = 1 then 0 else b.val; rw [if_neg (by decide)])

/-- A one-column matrix repeated along every row. -/
theorem col2_apply {α : Type} (w : S512x1.Idx → α) (b : Fin 512) (n : Fin 65536) :
    broadcastInDim S512x65536 ![0, 1] bcast_S512x1_S512x65536_0_1 w (ix2 b n) = w (ix2 b 0) :=
  broadcastInDim_apply _ bcast_S512x1_S512x65536_0_1 w (ix2 b n) (ix2 b 0) (fun a => match a with
    | ⟨0, _⟩ => by show b.val = if (512 : Nat) = 1 then 0 else b.val; rw [if_neg (by decide)]
    | ⟨1, _⟩ => by show 0 = if (1 : Nat) = 1 then 0 else n.val; rw [if_pos rfl])

/-- Minus infinity, broadcast over the rows. -/
theorem negInfB_apply (i : S512.Idx) :
    broadcastInDim S512 ![] bcast_S_S512 (constant (F := Ideal) S_ .f32 0xFF800000#32) i = (⊥ : EReal) := by
  refine (broadcastInDim_apply _ bcast_S_S512 (constant (F := Ideal) S_ .f32 0xFF800000#32) i ix0 (fun a => a.elim0)).trans ?_
  exact negInf_val

/-- The exponential and the logarithm of an array, entry by entry. -/
theorem hostExp_apply {s : Shape} {φ : FTy} (x : FVec Ideal s φ) (i : s.Idx) : Host.exp (F := Ideal) x i = Ideal.exp (x i) := rfl
theorem hostLog_apply {s : Shape} {φ : FTy} (x : FVec Ideal s φ) (i : s.Idx) : Host.log (F := Ideal) x i = Ideal.log (x i) := rfl

/-- The fold of the maximum from minus infinity over a row of 65536 reals is the row's largest entry. -/
theorem fold_maximumf_coe (zr : Fin 65536 → ℝ) :
    (Finset.univ : Finset (Fin 65536)).fold (FloatOps.maximumf (F := Ideal) (φ := .f32)) (⊥ : EReal) (fun j => ((zr j : ℝ) : EReal))
      = ((Cert.Lse.rowMax Cert.Spec.h65536 zr : ℝ) : EReal) :=
  Cert.Lse.fold_max_coe Cert.Spec.h65536 zr

/-- The sum over a row of the exponentials of real differences is the specification's shifted exponential sum. -/
theorem expSum_coe (Zr : ℕ → ℝ) (m : ℝ) :
    ∑ k : Fin 65536, ((Real.exp (Zr k.val - m) : ℝ) : EReal) = ((Cert.Lse.expSum Zr 65536 m : ℝ) : EReal) := by
  rw [Cert.Lse.coe_sum]
  unfold Cert.Lse.expSum
  exact congrArg _ (Fin.sum_univ_eq_sum_range (fun n => Real.exp (Zr n - m)) 65536)

section Rows
variable (z : FVec Ideal S512x65536 .f32) (Z : Fin 512 → ℕ → ℝ)
  (hz : ∀ (b : Fin 512) (n : Fin 65536), z (ix2 b n) = ((Z b n.val : ℝ) : EReal))
include hz

/-- The maximum of a row of reals, taken from minus infinity, is the row's largest entry. -/
theorem rowMaxOf_apply (b : Fin 512) :
    rowMaxOf (F := Ideal) z (ix1 b) = ((Cert.Spec.rowTop (Z b) : ℝ) : EReal) := by
  unfold rowMaxOf
  refine (maximumf_apply _ _ _).trans ?_
  rw [negInfB_apply, max_bot_left]
  refine (Host.reduce_eq_fold_single (FloatOps.maximumf (F := Ideal) (φ := .f32)) z _ reducesTo_S512x65536_S512_d1
    reduces_rows h_S_ (ix1 b)).trans ?_
  refine (Finset.fold_congr (g := fun k : Fin 65536 => ((Z b k.val : ℝ) : EReal)) (fun k _ => ?_)).trans ?_
  · exact (congrArg z (lift_rows b k)).trans (hz b k)
  · rw [constant_apply, negInf_val]
    exact fold_maximumf_coe (fun j => Z b j.val)

/-- The scores shifted by their row's largest entry. -/
theorem shifted_apply (b : Fin 512) (n : Fin 65536) :
    shifted (F := Ideal) z (ix2 b n) = ((Z b n.val - Cert.Spec.rowTop (Z b) : ℝ) : EReal) := by
  unfold shifted
  refine (subf_apply _ _ _).trans ?_
  rw [col2_apply, col1_apply, rowMaxOf_apply z Z hz b, hz b n, ← EReal.coe_sub]

/-- The sum of a row's shifted exponentials. -/
theorem expRow_apply (b : Fin 512) :
    Host.reduceAdd (F := Ideal) (Host.exp (F := Ideal) (shifted (F := Ideal) z)) (constant (F := Ideal) S_ .f32 0x00000000#32)
        reducesTo_S512x65536_S512_d1 h_S_ (ix1 b)
      = ((Cert.Lse.expSum (Z b) 65536 (Cert.Spec.rowTop (Z b)) : ℝ) : EReal) := by
  simp only [Host.reduceAdd, Ideal.hostReduceAdd_def]
  rw [Ideal.hostReduceAdd_single reducesTo_S512x65536_S512_d1 reduces_rows, constant_apply, Ideal.ofBits_zero_f32, zero_add]
  refine (Finset.sum_congr rfl (g := fun k : Fin 65536 => ((Real.exp (Z b k.val - Cert.Spec.rowTop (Z b)) : ℝ) : EReal))
    (fun k _ => ?_)).trans ?_
  · refine (hostExp_apply _ _).trans ?_
    rw [lift_rows, shifted_apply z Z hz b k]
    rfl
  · exact expSum_coe (Z b) _

/-- The log-softmax of a row of reals. -/
theorem logSoftmax_apply (b : Fin 512) (n : Fin 65536) :
    logSoftmax (F := Ideal) z (ix2 b n)
      = ((Z b n.val - Cert.Spec.rowTop (Z b) - Real.log (Cert.Lse.expSum (Z b) 65536 (Cert.Spec.rowTop (Z b))) : ℝ) : EReal) := by
  unfold logSoftmax
  refine (subf_apply _ _ _).trans ?_
  rw [col2_apply, shifted_apply z Z hz b n, hostLog_apply, col1_apply, expRow_apply z Z hz b,
    Cert.Lse.log_coe_pos (Cert.Lse.expSum_pos (Z b) Cert.Spec.h65536 _), ← EReal.coe_sub]

end Rows

end Stages

/-- The reference's value on real data is the specification's loss. -/
theorem value (xR : Fin 512 → Fin 256 → ℝ) (fR : Fin 65536 → Fin 256 → ℝ) (x2 : IVec S512 32)
    (hx2 : ∀ b : Fin 512, 0 ≤ (x2 (ix1 b)).toInt ∧ (x2 (ix1 b)).toInt < 65536) :
    negMean (F := Ideal) (taken (logSoftmax (scoresN (arrX xR) (arrBank fR))) x2) ix0
      = ((Cert.Spec.loss xR fR (fun b => (x2 (ix1 b)).toNat) : ℝ) : EReal) := by
  -- the taken column, row by row: the label's log-softmax entry
  have htk : taken (F := Ideal) (logSoftmax (scoresN (arrX xR) (arrBank fR))) x2
      = fun i : S512x1.Idx => (((fun b : Fin 512 =>
          Cert.Spec.score xR fR b (x2 (ix1 b)).toNat - Cert.Spec.rowTop (Cert.Spec.score xR fR b)
            - Real.log (Cert.Lse.expSum (Cert.Spec.score xR fR b) 65536 (Cert.Spec.rowTop (Cert.Spec.score xR fR b)))) (i 0) : ℝ) : EReal) := by
    funext i
    obtain ⟨b, c, rfl⟩ : ∃ (b : Fin 512) (c : Fin 1), i = ix2 b c := ⟨i 0, i 1, eq_ix2 i⟩
    obtain rfl : c = 0 := Subsingleton.elim _ _
    rw [Cert.ReferenceIdeal.RefTaken.taken_apply _ x2 hx2 b]
    exact logSoftmax_apply _ (Cert.Spec.score xR fR) (scoresN_apply xR fR) b _
  rw [htk]
  refine (Cert.ReferenceIdeal.RefTaken.negMean_coe (fun b : Fin 512 =>
          Cert.Spec.score xR fR b (x2 (ix1 b)).toNat - Cert.Spec.rowTop (Cert.Spec.score xR fR b)
            - Real.log (Cert.Lse.expSum (Cert.Spec.score xR fR b) 65536 (Cert.Spec.rowTop (Cert.Spec.score xR fR b))))).trans ?_
  -- the real identity: the negated mean of (score − top − log sum) is the mean of (top + log sum − score)
  refine congrArg _ ?_
  unfold Cert.Spec.loss Cert.Spec.lse
  rw [← neg_div, ← Finset.sum_neg_distrib]
  refine congrArg (· / 512) (Finset.sum_congr rfl fun b _ => ?_)
  ring

end Cert.ReferenceIdeal.RefVal

end
-- ==== Proof.RefFinal.lean ====
import proofs.«415887_j14611478741436_1_alg».proof.Proof.RefEval
import proofs.«415887_j14611478741436_1_alg».proof.Proof.RefVal
import proofs.«415887_j14611478741436_1_alg».proof.Proof.Normalize

/-!
The idealized reference program's run on real data: its result buffer ends at the specification's loss of the
normalized queries, the bank and the labels.
-/

noncomputable section

namespace Cert.ReferenceIdeal.RefFinal

open Idealize.ShloMosaic Idealize.ShloMosaic.TcCoe Idealize.SL.Sem Idealize.ShloMosaic.ValueIdx
open Cert.ReferenceIdeal Cert.ReferenceIdeal.Gen

variable (m : (ℓ : Loc nD τ sig) → Buf (Elt Ideal) ℓ) (ρ : Dev nD → PrngReg)

theorem run (xin : Dev nD → Fin 512 → Fin 256 → ℝ) (fRs : Dev nD → Fin 65536 → Fin 256 → ℝ)
    (h0 : ∀ c : Dev nD, (m ((c.tc : Thread nD τ).loc main_arg0) : FVec Ideal S512x256 .f32) = fun i => ((xin c (i 0) (i 1) : ℝ) : EReal))
    (h3 : ∀ c : Dev nD, (m ((c.tc : Thread nD τ).loc main_arg3) : FVec Ideal S65536x256 .f32) = fun i => ((fRs c (i 0) (i 1) : ℝ) : EReal))
    (hpos : ∀ (c : Dev nD) (b : Fin 512), 0 < ∑ k : Fin 256, xin c b k * xin c b k)
    (h2 : ∀ (c : Dev nD) (b : Fin 512), 0 ≤ (m ((c.tc : Thread nD τ).loc main_arg2) (ix1 b)).toInt
      ∧ (m ((c.tc : Thread nD τ).loc main_arg2) (ix1 b)).toInt < 65536) :
    θ_run defs (onTc (τ := τ) (main (F := Ideal))) ⟨m, fun _ => 0, ρ⟩ fun r => ∀ c : Dev nD,
      r.2.mem ((c.tc : Thread nD τ).loc main_v12)
          = (fun _ => ((Cert.Spec.loss (Cert.Normalize.unit (xin c)) (fRs c)
              (fun b => (m ((c.tc : Thread nD τ).loc main_arg2) (ix1 b)).toNat) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Stages.run m ρ)
  unfold Stages.result Stages.scores
  rw [h0 c, h3 c]
  have hn : Stages.normalized (F := Ideal) (fun i : S512x256.Idx => ((xin c (i 0) (i 1) : ℝ) : EReal))
      = RefVal.arrX (Cert.Normalize.unit (xin c)) :=
    Cert.Normalize.normalized_coe (xin c) (hpos c) _ _ _ _
  show Stages.negMean (Stages.taken (Stages.logSoftmax (Stages.scoresN
      (Stages.normalized (F := Ideal) (fun i : S512x256.Idx => ((xin c (i 0) (i 1) : ℝ) : EReal))) (RefVal.arrBank (fRs c))))
      (m ((c.tc : Thread nD τ).loc main_arg2))) = _
  rw [hn]
  funext i
  rw [eq_ix0 i]
  exact RefVal.value (Cert.Normalize.unit (xin c)) (fRs c) (m ((c.tc : Thread nD τ).loc main_arg2)) (h2 c)

end Cert.ReferenceIdeal.RefFinal

end
-- ==== Proof.PreDecode.lean ====
import proofs.«415887_j14611478741436_1_alg».proof.Pre_finite_inputs
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

/-!
The precondition read: every entry of the queries and of the bank is a real number, every label lies in
`[0, 65536)`, and every query row has a positive sum of squares (so its Euclidean norm is not zero).
-/

noncomputable section

namespace Cert.PreDecode

open Idealize.ShloMosaic Idealize.ShloMosaic.ValueIdx
open Cert.Pre_finite_inputs

variable [Cert.Pre_finite_inputs.Facts]

/-- An extended real whose absolute value is below `+∞` is a real number. -/
private theorem real_of_abs_lt_inf (x : EReal)
    (h : Ideal.cmp .olt (max x (-x)) (Ideal.ofBits .f32 0x7F800000#32) = 1#1) : ∃ r : ℝ, x = ((r : ℝ) : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An ordered "greater than" that came out true is the strict order. -/
private theorem lt_of_cmp_ogt (x y : EReal) (h : Ideal.cmp .ogt x y = 1#1) : y < x := by
  unfold Ideal.cmp at h
  by_contra hn
  simp [hn] at h

theorem decode (x0 x1 : FVec Ideal S512x256 .f32) (x2 : IVec S512 32) (x3 : FVec Ideal S65536x256 .f32)
    (h : Cert.Pre_finite_inputs.fn (F := Ideal) x0 x1 x2 x3 = fun _ => 1#1) :
    (∀ i, ∃ r : ℝ, x0 i = ((r : ℝ) : EReal)) ∧ (∀ i, ∃ r : ℝ, x3 i = ((r : ℝ) : EReal))
    ∧ (∀ b : Fin 512, 0 ≤ (x2 (ix1 b)).toInt ∧ (x2 (ix1 b)).toInt < 65536)
    ∧ (∀ b : Fin 512, (0 : EReal) < ∑ k : Fin 256, x0 (ix2 b k) * x0 (ix2 b k)) := by
  haveI : Subsingleton S_.Idx := ⟨fun a b => funext fun d => d.elim0⟩
  have hR : S512x256.Reduces [1] S512 := by decide
  have e := congrFun h ix0
  unfold Cert.Pre_finite_inputs.fn Cert.Pre_finite_inputs.fn_part1 at e
  dsimp only at e
  obtain ⟨e20, h25⟩ := IntOp.andi_eq_one.1 e
  obtain ⟨e13, h19⟩ := IntOp.andi_eq_one.1 e20
  obtain ⟨e8, h12⟩ := IntOp.andi_eq_one.1 e13
  obtain ⟨h3, -⟩ := IntOp.andi_eq_one.1 e8
  have a3 := Host.reduce_andi_all _ _ _ _ _ h3
  have a12 := Host.reduce_andi_all _ _ _ _ _ h12
  have a19 := Host.reduce_andi_all _ _ _ _ _ h19
  have a25 := Host.reduce_andi_all _ _ _ _ _ h25
  refine ⟨fun i => real_of_abs_lt_inf _ (a3 i), fun i => real_of_abs_lt_inf _ (a12 i), fun b => ?_, fun b => ?_⟩
  · obtain ⟨hge, hlt⟩ := IntOp.andi_eq_one.1 (a19 (ix1 b))
    have h1 := IntOp.cmpi_sge.1 hge
    have h2 := IntOp.cmpi_slt.1 hlt
    have z0 : (0#32 : BitVec 32).toInt = 0 := by decide
    have z1 : (65536#32 : BitVec 32).toInt = 65536 := by decide
    exact ⟨le_of_eq_of_le z0.symm h1, lt_of_lt_of_eq h2 z1⟩
  · have hgt := lt_of_cmp_ogt _ _ (a25 (ix1 b))
    have hgt' : Ideal.ofBits .f32 0x00000000#32
        < Ideal.hostReduceAdd Facts.reducesTo_S512x256_S512_d1 (mulf x0 x0) (Ideal.ofBits .f32 0x00000000#32) (ix1 b) := hgt
    rw [Ideal.hostReduceAdd_single _ hR, Ideal.ofBits_zero_f32, zero_add] at hgt'
    have hl : ∀ k : Fin 256, hR.lift (ix1 b) k = ix2 b k := fun k =>
      funext fun d => match d with | ⟨0, _⟩ => rfl | ⟨1, _⟩ => rfl
    refine lt_of_lt_of_eq hgt' (Finset.sum_congr rfl fun k _ => ?_)
    show x0 (hR.lift (ix1 b) k) * x0 (hR.lift (ix1 b) k) = _
    rw [hl k]

end Cert.PreDecode

end
-- ==== Proof.RealArr.lean ====
import proofs.«415887_j14611478741436_1_alg».proof.Proof.Softmax
import Idealize.ShloMosaic.Lib.ValueIdx

/-!
An array of extended reals whose every entry is a real number is the coercion of a real family.
-/

noncomputable section

namespace Cert.RealArr

open Idealize.ShloMosaic Idealize.ShloMosaic.ValueIdx

theorem exists_real2 {n0 n1 : ℕ} (x : (⟨2, ![n0, n1]⟩ : Shape).Idx → EReal) (h : ∀ i, ∃ r : ℝ, x i = ((r : ℝ) : EReal)) :
    ∃ xr : Fin n0 → Fin n1 → ℝ, x = fun i => ((xr (i 0) (i 1) : ℝ) : EReal) := by
  choose g hg using h
  refine ⟨fun a b => g (ix2 a b), funext fun i => ?_⟩
  rw [hg i]
  exact congrArg (fun j => ((g j : ℝ) : EReal)) (eq_ix2 i)

/-- A positive sum of squares on the extended reals is a positive real sum of squares. -/
theorem pos_of_coe {n : ℕ} (g : Fin n → ℝ) (h : (0 : EReal) < ∑ k : Fin n, ((g k : ℝ) : EReal) * ((g k : ℝ) : EReal)) :
    0 < ∑ k : Fin n, g k * g k := by
  simp only [← EReal.coe_mul] at h
  rw [Cert.Lse.coe_sum] at h
  exact_mod_cast h

end Cert.RealArr

end
-- ==== Proof.lean ====
/-
  The equivalence of a streamed log-sum-exp cross-entropy kernel with its dense reference, over the extended reals.

  Both programs normalize each of the 512 query rows by its Euclidean norm and score it against the 65536 rows of a
  memory bank, scaled by the inverse temperature. The reference takes the row-wise log-softmax of the whole 512 × 65536
  score matrix, reads the entry at each query's label and returns the negated mean. The kernel streams the bank in 32
  blocks of 2048 rows, carrying per query a running maximum `m` and a running sum `l = ∑ exp (score - m)`, rescaled by
  `exp (m_old - m_new)` whenever the maximum grows; after the last block it writes `m + log l`, and the host operations
  after the region subtract the label's score (a row gather from the bank and an inner product) and average.

  Over the reals both are `(1/512) ∑_b (M_b + log ∑_n exp (s_bn - M_b) - s_b,label(b))` with `M_b` the largest score of
  query `b`: the streaming pair `(m, l)` is, after every block, the maximum and the shifted exponential sum of the scores
  seen so far (induction over the grid points), and `-(x - M - log S) = M + log S - x`.

  The claim holds under the stated domain: every float input finite; every label in `[0, 65536)` (outside it the
  reference's gather fills with NaN); every query row with a positive sum of squares (a zero row makes the reference's
  normalization `0 / 0`). The kernel's scale `20.0` is read as the exact reciprocal `268435456 / 13421773` of the
  binary fraction `0.05f` the reference divides by (the source spells it `1.0 / TEMP` against the reference's `/ TEMP`).

  Frames: the two kernel programs' frames are the generated class-R frame runs; the reference's is its run with the
  result dropped.
-/
import proofs.«415887_j14611478741436_1_alg».proof.Defs
import proofs.«415887_j14611478741436_1_alg».proof.Proof.Gen.Kernel
import proofs.«415887_j14611478741436_1_alg».proof.Proof.Gen.Kernel.Skeleton
import proofs.«415887_j14611478741436_1_alg».proof.Proof.Gen.Kernel.Launch
import proofs.«415887_j14611478741436_1_alg».proof.Proof.Gen.Kernel.Points
import proofs.«415887_j14611478741436_1_alg».proof.Proof.Gen.Kernel.Frame
import proofs.«415887_j14611478741436_1_alg».proof.Proof.Gen.KernelIdeal
import proofs.«415887_j14611478741436_1_alg».proof.Proof.Gen.KernelIdeal.Skeleton
import proofs.«415887_j14611478741436_1_alg».proof.Proof.Gen.KernelIdeal.Launch
import proofs.«415887_j14611478741436_1_alg».proof.Proof.Gen.KernelIdeal.Points
import proofs.«415887_j14611478741436_1_alg».proof.Proof.Gen.KernelIdeal.Frame
import proofs.«415887_j14611478741436_1_alg».proof.Proof.Gen.ReferenceIdeal
import proofs.«415887_j14611478741436_1_alg».proof.Proof.Gen.Pre_finite_inputs
import proofs.«415887_j14611478741436_1_alg».proof.Proof.KFinal
import proofs.«415887_j14611478741436_1_alg».proof.Proof.RefFinal
import proofs.«415887_j14611478741436_1_alg».proof.Proof.PreDecode
import proofs.«415887_j14611478741436_1_alg».proof.Proof.RealArr
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The one rewrite of the idealization: the kernel's scale `20.0` named the exact reciprocal of the reference's divisor. -/
theorem preserves : Cert.preserves_Kernel_KernelIdeal :=
  IdealRules.named_const.statement Cert.KernelIdeal.κ "inv_temp" .f32 0x41A00000#32 ((268435456 / 13421773 : ℝ) : EReal) rfl

/-- Under the precondition both programs end with their result at the same loss of the (real) normalized queries, the
    (real) bank and the (in-range) labels. -/
theorem algebraic : Cert.algebraic_KernelIdeal_ReferenceIdeal := by
  intro m ρ m' ρ' hpre hagree
  have hd := fun c => Cert.PreDecode.decode _ _ _ _ (hpre c)
  choose xin hxin using fun c => Cert.RealArr.exists_real2 _ (hd c).1
  choose fRs hfR using fun c => Cert.RealArr.exists_real2 _ (hd c).2.1
  have hpos : ∀ (c : Dev Cert.KernelIdeal.nD) (b : Fin 512), 0 < ∑ k : Fin 256, xin c b k * xin c b k := fun c b => by
    have h := (hd c).2.2.2 b
    rw [hxin c] at h
    exact Cert.RealArr.pos_of_coe (xin c b) h
  have h2 := fun c => (hd c).2.2.1
  refine ⟨fun c => fun _ => ((Cert.Spec.loss (Cert.Normalize.unit (xin c)) (fRs c)
      (fun b => (m ((c.tc : Thread Cert.KernelIdeal.nD Cert.KernelIdeal.τ).loc Cert.KernelIdeal.main_arg2) (ix1 b)).toNat) : ℝ) : EReal),
    Cert.KernelIdeal.KVal.run m ρ xin fRs hxin hfR hpos h2, ?_⟩
  have href := Cert.ReferenceIdeal.RefFinal.run m' ρ' xin fRs
    (fun c => by rw [(hagree c).1]; exact hxin c)
    (fun c => by rw [(hagree c).2.2.2]; exact hfR c)
    hpos
    (fun c b => by rw [(hagree c).2.2.1]; exact h2 c b)
  refine (θ_run Cert.ReferenceIdeal.defs _ _).mono (fun r h c => ⟨(h c).1.trans ?_, (h c).2⟩) href
  dsimp only
  rw [(hagree c).2.2.1]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
